-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x112 : Shape := ⟨2, ![64, 112]⟩
abbrev S112 : Shape := ⟨1, ![112]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x112 : S_.BroadcastsInDim S64x112 (![] : Fin 0 → Fin S64x112.rank)
  reducesTo_S64x112_S_d0_1 : S64x112.ReducesTo [0, 1] S_
  bcast_S_S112 : S_.BroadcastsInDim S112 (![] : Fin 0 → Fin S112.rank)
  reducesTo_S112_S_d0 : S112.ReducesTo [0] S_

variable [Facts]

def fn_part2 {F : FTy → Type} [FloatOps F] (main_arg8 : FVec F S64x112 .f32) (main_arg9 : FVec F S112 .f32) (main_v33 : IVec S_ 1) : IVec S_ 1 :=
  let main_v34 : FVec F S64x112 .f32 := Host.absf main_arg8
  let main_cst_12 : FVec F S_ .f32 := constant S_ .f32 0x7F800000#32
  let main_v35 : FVec F S64x112 .f32 := broadcastInDim S64x112 ![] bcast_S_S64x112 main_cst_12
  let main_v36 : IVec S64x112 1 := cmpf .olt main_v34 main_v35
  let main_c_13 : IVec S_ 1 := constantI S_ 1 1#1
  let main_v37 : IVec S_ 1 := (fun x v => Host.reduce IntOp.andi x v reducesTo_S64x112_S_d0_1 h_S_) main_v36 main_c_13
  let main_v38 : IVec S_ 1 := andi main_v33 main_v37
  let main_v39 : FVec F S112 .f32 := Host.absf main_arg9
  let main_cst_14 : FVec F S_ .f32 := constant S_ .f32 0x7F800000#32
  let main_v40 : FVec F S112 .f32 := broadcastInDim S112 ![] bcast_S_S112 main_cst_14
  let main_v41 : IVec S112 1 := cmpf .olt main_v39 main_v40
  let main_c_15 : IVec S_ 1 := constantI S_ 1 1#1
  let main_v42 : IVec S_ 1 := (fun x v => Host.reduce IntOp.andi x v reducesTo_S112_S_d0 h_S_) main_v41 main_c_15
  let main_v43 : IVec S_ 1 := andi main_v38 main_v42
  main_v43

def fn_part1 {F : FTy → Type} [FloatOps F] (main_arg5 : FVec F S64x64 .f32) (main_arg6 : FVec F S64 .f32) (main_arg7 : FVec F S64x64 .f32) (main_arg8 : FVec F S64x112 .f32) (main_arg9 : FVec F S112 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x64 .f32) (main_arg3 : FVec F S64 .f32) (main_arg4 : FVec F S128x64 .f32) (main_arg5 : FVec F S64x64 .f32) (main_arg6 : FVec F S64 .f32) (main_arg7 : FVec F S64x64 .f32) (main_arg8 : FVec F S64x112 .f32) (main_arg9 : FVec F S112 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x112 : Shape := ⟨2, ![64, 112]⟩
abbrev S112 : Shape := ⟨1, ![112]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x64 : Shape := ⟨2, ![1, 64]⟩
abbrev S100000x64 : Shape := ⟨2, ![100000, 64]⟩
abbrev S5000x128 : Shape := ⟨2, ![5000, 128]⟩
abbrev S5000x64 : Shape := ⟨2, ![5000, 64]⟩
abbrev S1600000x64 : Shape := ⟨2, ![1600000, 64]⟩
abbrev S1x112 : Shape := ⟨2, ![1, 112]⟩
abbrev S100000x112 : Shape := ⟨2, ![100000, 112]⟩
abbrev S5000x112 : Shape := ⟨2, ![5000, 112]⟩

abbrev nBuf : Space → Nat
  | .hbm => 63
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S128x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x112, .f32⟩
  | .hbm, ⟨9, _⟩ => ⟨S112, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x128, .f32⟩
  | .hbm, ⟨35, _⟩ => ⟨S_, .f32⟩
  | .hbm, ⟨36, _⟩ => ⟨S100000x128, .f32⟩
  | .hbm, ⟨37, _⟩ => ⟨S1600000x1, .i32⟩
  | .hbm, ⟨38, _⟩ => ⟨S100000x128, .f32⟩
  | .hbm, ⟨39, _⟩ => ⟨S100000x1, .f32⟩
  | .hbm, ⟨40, _⟩ => ⟨S100000x128, .f32⟩
  | .hbm, ⟨41, _⟩ => ⟨S100000x128, .f32⟩
  | .hbm, ⟨42, _⟩ => ⟨S1x64, .f32⟩
  | .hbm, ⟨43, _⟩ => ⟨S100000x64, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x64, .f32⟩
  | .hbm, ⟨53, _⟩ => ⟨S_, .f32⟩
  | .hbm, ⟨54, _⟩ => ⟨S100000x64, .f32⟩
  | .hbm, ⟨55, _⟩ => ⟨S1600000x1, .i32⟩
  | .hbm, ⟨56, _⟩ => ⟨S100000x64, .f32⟩
  | .hbm, ⟨57, _⟩ => ⟨S100000x1, .f32⟩
  | .hbm, ⟨58, _⟩ => ⟨S100000x64, .f32⟩
  | .hbm, ⟨59, _⟩ => ⟨S100000x64, .f32⟩
  | .hbm, ⟨60, _⟩ => ⟨S1x64, .f32⟩
  | .hbm, ⟨61, _⟩ => ⟨S1x112, .f32⟩
  | .hbm, ⟨62, _⟩ => ⟨S100000x112, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x64, .f32⟩
  | .local _ .vmem, ⟨5, _⟩ => ⟨S1x64, .f32⟩
  | .local _ .vmem, ⟨6, _⟩ => ⟨S128x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S1x64, .f32⟩
  | .local _ .vmem, ⟨15, _⟩ => ⟨S64x64, .f32⟩
  | .local _ .vmem, ⟨16, _⟩ => ⟨S64x112, .f32⟩
  | .local _ .vmem, ⟨17, _⟩ => ⟨S1x112, .f32⟩
  | .local _ .vmem, ⟨18, _⟩ => ⟨S5000x112, .f32⟩
  | .local _ .vmem, ⟨19, _⟩ => ⟨S5000x112, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x112 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x112 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x112 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S112_S1x112 : S112.ShapeCasts S1x112
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  inb_S64x112_S64x112_0_0 : ∀ a, (![0, 0] : Fin 2 → Nat) a + S64x112.size a ≤ S64x112.size a
  h_S64x112 : 0 < S64x112.numel
  inb_S1x112_S1x112_0_0 : ∀ a, (![0, 0] : Fin 2 → Nat) a + S1x112.size a ≤ S1x112.size a
  h_S1x112 : 0 < S1x112.numel
  shapeCasts_S1x112_S1x112 : S1x112.ShapeCasts S1x112
  broadcasts_S1x112_S5000x112 : S1x112.Broadcasts S5000x112
  inb_S5000x112_S5000x112_0_0 : ∀ a, (![0, 0] : Fin 2 → Nat) a + S5000x112.size a ≤ S5000x112.size a
  h_S5000x112 : 0 < S5000x112.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S5000x64_S64x112_S5000x112_1_0_0_1_n_n_wf : DotDims.WF S5000x64 S64x112 S5000x112 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x112.size a ≤ S64x112.size a
  hwx1_5 : ∀ i : grid1.Coords, EltTy.bits .f32 = 32 ∨ (Rect.block (s := S64x112) S64x112.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x112.size a ≤ S1x112.size a
  hwx1_6 : ∀ i : grid1.Coords, EltTy.bits .f32 = 32 ∨ (Rect.block (s := S1x112) S1x112.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x112.size a ≤ S100000x112.size a
  hwx1_7 : ∀ i : grid1.Coords, EltTy.bits .f32 = 32 ∨ (Rect.block (s := S100000x112) S5000x112.size (cc1_transform_7 i) (hinb1_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x112_S5000x112_1_0_0_1_n_n : DotDims S5000x64 S64x112 S5000x112 where
  lhsContracting := [1]
  rhsContracting := [0]
  lhsNonContracting := [0]
  rhsNonContracting := [1]
  lhsBatch := []
  rhsBatch := []
  wf := dot_S5000x64_S64x112_S5000x112_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S64x112.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v41) S1x112.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v42) S5000x112.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x112 : Shape := ⟨2, ![64, 112]⟩
abbrev S112 : Shape := ⟨1, ![112]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S100000x64 : Shape := ⟨2, ![100000, 64]⟩
abbrev S1x64 : Shape := ⟨2, ![1, 64]⟩
abbrev S1600000x64 : Shape := ⟨2, ![1600000, 64]⟩
abbrev S100000x112 : Shape := ⟨2, ![100000, 112]⟩
abbrev S1x112 : Shape := ⟨2, ![1, 112]⟩

abbrev nBuf : Space → Nat
  | .hbm => 86
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S128x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x112, .f32⟩
  | .hbm, ⟨9, _⟩ => ⟨S112, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S_, .f32⟩
  | .hbm, ⟨28, _⟩ => ⟨S1600000, .f32⟩
  | .hbm, ⟨29, _⟩ => ⟨S_, .f32⟩
  | .hbm, ⟨30, _⟩ => ⟨S100000, .f32⟩
  | .hbm, ⟨31, _⟩ => ⟨S1600000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x128, .f32⟩
  | .hbm, ⟨38, _⟩ => ⟨S100000x128, .f32⟩
  | .hbm, ⟨39, _⟩ => ⟨S100000x64, .f32⟩
  | .hbm, ⟨40, _⟩ => ⟨S1x64, .f32⟩
  | .hbm, ⟨41, _⟩ => ⟨S100000x64, .f32⟩
  | .hbm, ⟨42, _⟩ => ⟨S100000x64, .f32⟩
  | .hbm, ⟨43, _⟩ => ⟨S100000x64, .f32⟩
  | .hbm, ⟨44, _⟩ => ⟨S100000x64, .f32⟩
  | .hbm, ⟨45, _⟩ => ⟨S_, .f32⟩
  | .hbm, ⟨46, _⟩ => ⟨S100000x64, .f32⟩
  | .hbm, ⟨47, _⟩ => ⟨S100000x64, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x64, .f32⟩
  | .hbm, ⟨57, _⟩ => ⟨S_, .f32⟩
  | .hbm, ⟨58, _⟩ => ⟨S100000x64, .f32⟩
  | .hbm, ⟨59, _⟩ => ⟨S1600000x1, .i32⟩
  | .hbm, ⟨60, _⟩ => ⟨S100000x64, .f32⟩
  | .hbm, ⟨61, _⟩ => ⟨S_, .f32⟩
  | .hbm, ⟨62, _⟩ => ⟨S1600000, .f32⟩
  | .hbm, ⟨63, _⟩ => ⟨S_, .f32⟩
  | .hbm, ⟨64, _⟩ => ⟨S100000, .f32⟩
  | .hbm, ⟨65, _⟩ => ⟨S1600000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x64, .f32⟩
  | .hbm, ⟨72, _⟩ => ⟨S100000x64, .f32⟩
  | .hbm, ⟨73, _⟩ => ⟨S100000x64, .f32⟩
  | .hbm, ⟨74, _⟩ => ⟨S1x64, .f32⟩
  | .hbm, ⟨75, _⟩ => ⟨S100000x64, .f32⟩
  | .hbm, ⟨76, _⟩ => ⟨S100000x64, .f32⟩
  | .hbm, ⟨77, _⟩ => ⟨S100000x64, .f32⟩
  | .hbm, ⟨78, _⟩ => ⟨S100000x64, .f32⟩
  | .hbm, ⟨79, _⟩ => ⟨S_, .f32⟩
  | .hbm, ⟨80, _⟩ => ⟨S100000x64, .f32⟩
  | .hbm, ⟨81, _⟩ => ⟨S100000x64, .f32⟩
  | .hbm, ⟨82, _⟩ => ⟨S100000x112, .f32⟩
  | .hbm, ⟨83, _⟩ => ⟨S1x112, .f32⟩
  | .hbm, ⟨84, _⟩ => ⟨S100000x112, .f32⟩
  | .hbm, ⟨85, _⟩ => ⟨S100000x112, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call0_cst : Ref sig .tc := ⟨.hbm, 45, rfl⟩
abbrev main_call0_v0 : Ref sig .tc := ⟨.hbm, 46, rfl⟩
abbrev main_v29 : Ref sig .tc := ⟨.hbm, 47, rfl⟩
abbrev main_c_4 : Ref sig .tc := ⟨.hbm, 48, rfl⟩
abbrev main_v30 : Ref sig .tc := ⟨.hbm, 49, rfl⟩
abbrev main_v31 : Ref sig .tc := ⟨.hbm, 50, rfl⟩
abbrev main_c_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_6 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_9 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_call1_cst : Ref sig .tc := ⟨.hbm, 79, rfl⟩
abbrev main_call1_v0 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S112_S1x112_1 : S112.BroadcastsInDim S1x112 (![1] : Fin 1 → Fin S1x112.rank)
  bcast_S1x112_S100000x112_0_1 : S1x112.BroadcastsInDim S100000x112 (![0, 1] : Fin 2 → Fin S100000x112.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x112_S100000x112_1_0_0_1_n_n_wf : DotDims.WF S100000x64 S64x112 S100000x112 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x112_S100000x112_1_0_0_1_n_n : DotDims S100000x64 S64x112 S100000x112 where
  lhsContracting := [1]
  rhsContracting := [0]
  lhsNonContracting := [0]
  rhsNonContracting := [1]
  lhsBatch := []
  rhsBatch := []
  wf := dot_S100000x64_S64x112_S100000x112_1_0_0_1_n_n_wf

class Facts : Prop extends Facts₀ where

variable [Facts]
-- ==== Proof.LibFinite.lean ====
/- Finite extended reals. A value of the extended reals is FINITE when it is neither infinity, that is, when it is
   the image of a real number. The float operations read at the extended reals (sum, difference, product, quotient by a
   nonzero divisor, maximum, exponential, reciprocal square root of a positive argument, a choice between two values) keep
   finite values finite; this module states each closure fact once, together with the sign facts that go with them. -/
import Idealize.ShloMosaic.PureOps.Ideal
import Mathlib.Data.EReal.Operations
import Mathlib.Data.EReal.Inv
import Mathlib.Algebra.Order.BigOperators.Group.Finset

namespace Cert.LibFinite

open Idealize.ShloMosaic
open scoped BigOperators

/-- A finite extended real: neither `⊤` nor `⊥`. -/
def IsFin (x : EReal) : Prop := x ≠ ⊤ ∧ x ≠ ⊥

/-- The finite extended reals are exactly the real numbers. -/
theorem isFin_iff {x : EReal} : IsFin x ↔ ∃ r : ℝ, x = (r : EReal) := by
  constructor
  · rintro ⟨ht, hb⟩
    exact ⟨x.toReal, (EReal.coe_toReal ht hb).symm⟩
  · rintro ⟨r, rfl⟩
    exact ⟨EReal.coe_ne_top r, EReal.coe_ne_bot r⟩

/-- A finite value is the coercion of its real part. -/
theorem IsFin.coe_toReal {x : EReal} (h : IsFin x) : ((x.toReal : ℝ) : EReal) = x :=
  EReal.coe_toReal h.1 h.2

theorem IsFin.ne_top {x : EReal} (h : IsFin x) : x ≠ ⊤ := h.1
theorem IsFin.ne_bot {x : EReal} (h : IsFin x) : x ≠ ⊥ := h.2

/-- A real number is finite. -/
theorem isFin_coe (r : ℝ) : IsFin (r : EReal) := ⟨EReal.coe_ne_top r, EReal.coe_ne_bot r⟩

theorem isFin_zero : IsFin (0 : EReal) := isFin_coe 0
theorem isFin_one : IsFin (1 : EReal) := isFin_coe 1

theorem IsFin.add {x y : EReal} (hx : IsFin x) (hy : IsFin y) : IsFin (x + y) := by
  obtain ⟨a, rfl⟩ := isFin_iff.mp hx
  obtain ⟨b, rfl⟩ := isFin_iff.mp hy
  rw [← EReal.coe_add]; exact isFin_coe _

theorem IsFin.neg {x : EReal} (hx : IsFin x) : IsFin (-x) := by
  obtain ⟨a, rfl⟩ := isFin_iff.mp hx
  rw [← EReal.coe_neg]; exact isFin_coe _

theorem IsFin.sub {x y : EReal} (hx : IsFin x) (hy : IsFin y) : IsFin (x - y) := by
  obtain ⟨a, rfl⟩ := isFin_iff.mp hx
  obtain ⟨b, rfl⟩ := isFin_iff.mp hy
  rw [← EReal.coe_sub]; exact isFin_coe _

theorem IsFin.mul {x y : EReal} (hx : IsFin x) (hy : IsFin y) : IsFin (x * y) := by
  obtain ⟨a, rfl⟩ := isFin_iff.mp hx
  obtain ⟨b, rfl⟩ := isFin_iff.mp hy
  rw [← EReal.coe_mul]; exact isFin_coe _

/-- A finite sum of finite values is finite. -/
theorem isFin_sum {ι : Type*} (s : Finset ι) (f : ι → EReal) (h : ∀ i ∈ s, IsFin (f i)) : IsFin (∑ i ∈ s, f i) :=
  Finset.sum_induction f IsFin (fun _ _ ha hb => ha.add hb) isFin_zero h

/-- The same over every index of `Fin n`. -/
theorem isFin_sum_univ {n : Nat} (f : Fin n → EReal) (h : ∀ i, IsFin (f i)) : IsFin (∑ i, f i) :=
  isFin_sum Finset.univ f fun i _ => h i

theorem IsFin.max {x y : EReal} (hx : IsFin x) (hy : IsFin y) : IsFin (max x y) := by
  rcases max_choice x y with h | h <;> rw [h] <;> assumption

theorem IsFin.min {x y : EReal} (hx : IsFin x) (hy : IsFin y) : IsFin (min x y) := by
  rcases min_choice x y with h | h <;> rw [h] <;> assumption

/-- A choice between two finite values is finite. -/
theorem IsFin.ite {c : Prop} [Decidable c] {x y : EReal} (hx : IsFin x) (hy : IsFin y) : IsFin (if c then x else y) := by
  split <;> assumption

/-- The same for a Boolean condition. -/
theorem IsFin.cond {c : Bool} {x y : EReal} (hx : IsFin x) (hy : IsFin y) : IsFin (bif c then x else y) := by
  cases c <;> assumption

/-- The exponential of a finite value is the real exponential. -/
theorem exp_coe (r : ℝ) : Ideal.exp (r : EReal) = ((Real.exp r : ℝ) : EReal) := rfl

theorem IsFin.exp {x : EReal} (hx : IsFin x) : IsFin (Ideal.exp x) := by
  obtain ⟨a, rfl⟩ := isFin_iff.mp hx
  rw [exp_coe]; exact isFin_coe _

/-- The exponential of a finite value is positive. -/
theorem IsFin.exp_pos {x : EReal} (hx : IsFin x) : 0 < Ideal.exp x := by
  obtain ⟨a, rfl⟩ := isFin_iff.mp hx
  rw [exp_coe]; exact EReal.coe_pos.mpr (Real.exp_pos a)

/-- The exponential is nonnegative at every extended real (`0` at `⊥`, `⊤` at `⊤`). -/
theorem exp_nonneg (x : EReal) : 0 ≤ Ideal.exp x := by
  induction x using EReal.rec with
  | bot => exact le_of_eq rfl
  | top => exact le_top
  | coe r => rw [exp_coe]; exact EReal.coe_nonneg.mpr (Real.exp_pos r).le

/-- The reciprocal square root of a positive real is the real reciprocal of its square root. -/
theorem rsqrt_coe_of_pos {r : ℝ} (hr : 0 < r) : Ideal.rsqrt (r : EReal) = (((Real.sqrt r)⁻¹ : ℝ) : EReal) := by
  rw [Ideal.rsqrt_coe, if_neg (not_lt.mpr hr.le), if_neg hr.ne']

theorem IsFin.rsqrt {x : EReal} (hx : IsFin x) (hpos : 0 < x) : IsFin (Ideal.rsqrt x) := by
  obtain ⟨a, rfl⟩ := isFin_iff.mp hx
  rw [rsqrt_coe_of_pos (EReal.coe_pos.mp hpos)]; exact isFin_coe _

/-- The reciprocal square root of a positive finite value is positive. -/
theorem IsFin.rsqrt_pos {x : EReal} (hx : IsFin x) (hpos : 0 < x) : 0 < Ideal.rsqrt x := by
  obtain ⟨a, rfl⟩ := isFin_iff.mp hx
  have ha : 0 < a := EReal.coe_pos.mp hpos
  rw [rsqrt_coe_of_pos ha]
  exact EReal.coe_pos.mpr (inv_pos.mpr (Real.sqrt_pos.mpr ha))

/-- A quotient of reals by a nonzero real is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

theorem IsFin.div {x y : EReal} (hx : IsFin x) (hy : IsFin y) (h0 : y ≠ 0) : IsFin (Ideal.div x y) := by
  obtain ⟨a, rfl⟩ := isFin_iff.mp hx
  obtain ⟨b, rfl⟩ := isFin_iff.mp hy
  have hb : b ≠ 0 := fun h => h0 (by rw [h, EReal.coe_zero])
  rw [div_coe_coe a hb]; exact isFin_coe _

/-- A square is nonnegative, at the infinities too (`⊥ * ⊥ = ⊤`). -/
theorem zero_le_mul_self (x : EReal) : 0 ≤ x * x := by
  induction x using EReal.rec with
  | bot => rw [EReal.bot_mul_bot]; exact le_top
  | top => rw [EReal.top_mul_top]; exact le_top
  | coe r => rw [← EReal.coe_mul]; exact EReal.coe_nonneg.mpr (mul_self_nonneg r)

/-- A finite sum of nonnegative values is nonnegative. -/
theorem zero_le_sum {ι : Type*} (s : Finset ι) (f : ι → EReal) (h : ∀ i ∈ s, 0 ≤ f i) : 0 ≤ ∑ i ∈ s, f i :=
  Finset.sum_nonneg h

theorem zero_le_sum_univ {n : Nat} (f : Fin n → EReal) (h : ∀ i, 0 ≤ f i) : 0 ≤ ∑ i, f i :=
  Finset.sum_nonneg fun i _ => h i

/-- The sum of real numbers, taken in the extended reals, is the real sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative finite value plus a positive finite value is positive (a variance plus its epsilon). -/
theorem add_pos_of_nonneg_of_pos {x y : EReal} (hx : 0 ≤ x) (hy : 0 < y) : 0 < x + y :=
  lt_of_lt_of_le hy (le_add_of_nonneg_left hx)

end Cert.LibFinite
-- ==== Proof.LibConsts.lean ====
/- The float constants the two programs spell, as the extended reals their patterns denote. An f32 pattern with sign
   `s`, biased exponent `E` (neither `0` nor `255`) and fraction `T` denotes `(-1)^s (2^23 + T) 2^(E - 150)`. One module
   states them all, so that no other module unfolds the reading of a bit pattern. -/
import Idealize.ShloMosaic.PureOps.Ideal
import proofs.«134266_j56255481643658_1_alg».proof.Proof.LibFinite

namespace Cert.LibConsts

open Idealize.ShloMosaic
open Cert.LibFinite

/-- `+0.0` denotes `0`. -/
theorem ofBits_zero : Ideal.ofBits .f32 0x00000000#32 = 0 := by
  simp [Ideal.ofBits, Ideal.ieee]

/-- `1.0` denotes `1`. -/
theorem ofBits_one : Ideal.ofBits .f32 0x3F800000#32 = 1 := by
  simp [Ideal.ofBits, Ideal.ieee, -EReal.coe_mul]; norm_num

/-- `1.0` as a real coercion. -/
theorem ofBits_one_coe : Ideal.ofBits .f32 0x3F800000#32 = ((1 : ℝ) : EReal) := by
  rw [ofBits_one, EReal.coe_one]

/-- `50000.0` (exponent `142`, fraction `0x435000`) denotes the real `50000`. -/
theorem ofBits_50000 : Ideal.ofBits .f32 0x47435000#32 = ((50000 : ℝ) : EReal) := by
  simp [Ideal.ofBits, Ideal.ieee, -EReal.coe_mul]; norm_num

/-- The batch-norm epsilon, the f32 nearest `1e-5` (exponent `110`, fraction `0x27C5AC`): `10995116 / 2^40`. -/
theorem ofBits_eps : Ideal.ofBits .f32 0x3727C5AC#32 = ((10995116 / 2 ^ 40 : ℝ) : EReal) := by
  simp [Ideal.ofBits, Ideal.ieee, -EReal.coe_mul]; norm_num

/-- The batch-norm bias, the f32 nearest `1e-4` (exponent `113`, fraction `0x51B717`): `13743895 / 2^37`. -/
theorem ofBits_bias : Ideal.ofBits .f32 0x38D1B717#32 = ((13743895 / 2 ^ 37 : ℝ) : EReal) := by
  simp [Ideal.ofBits, Ideal.ieee, -EReal.coe_mul]; norm_num

theorem isFin_zero_lit : IsFin (Ideal.ofBits .f32 0x00000000#32) := by rw [ofBits_zero]; exact isFin_zero
theorem isFin_one_lit : IsFin (Ideal.ofBits .f32 0x3F800000#32) := by rw [ofBits_one]; exact isFin_one
theorem isFin_50000 : IsFin (Ideal.ofBits .f32 0x47435000#32) := by rw [ofBits_50000]; exact isFin_coe _
theorem isFin_eps : IsFin (Ideal.ofBits .f32 0x3727C5AC#32) := by rw [ofBits_eps]; exact isFin_coe _
theorem isFin_bias : IsFin (Ideal.ofBits .f32 0x38D1B717#32) := by rw [ofBits_bias]; exact isFin_coe _

/-- The epsilon is positive. -/
theorem eps_pos : 0 < Ideal.ofBits .f32 0x3727C5AC#32 := by
  rw [ofBits_eps]; exact EReal.coe_pos.mpr (by norm_num)

/-- The divisor `50000.0` is not zero. -/
theorem ofBits_50000_ne_zero : Ideal.ofBits .f32 0x47435000#32 ≠ 0 := by
  rw [ofBits_50000]; exact fun h => by
    have : (50000 : ℝ) = 0 := by exact_mod_cast h
    norm_num at this

end Cert.LibConsts
-- ==== Proof.LibDotSum.lean ====
/-
  A matrix product with ONE contracted axis, read at an output index as a sum over that axis's coordinate.
  The library states the product's value as a sum over the dimension numbers' contraction index set of the operands at
  two computed operand indices. For the two patterns below the contraction index is one coordinate `k`, and the operand
  indices are (r, k), (k, c) for rows × columns, and (k, r), (k, c) when the left operand is contracted over its rows.
  Each is stated for any extents and any dimension-numbers record with those axis lists.
-/
import Idealize.ShloMosaic.PureOps.Ideal.Laws
import Idealize.ShloMosaic.Lib.ValueIdx

noncomputable section

namespace Cert.Lib

open Idealize.ShloMosaic Idealize.ShloMosaic.ValueIdx

variable {M K N : Nat}

/-! ## Rows × columns: left axis 1 against right axis 0 -/

/-- The dimension numbers of an [M, K] × [K, N] product. -/
def rc (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

variable (wf : DotDims.WF ⟨2, ![M, K]⟩ ⟨2, ![K, N]⟩ ⟨2, ![M, N]⟩ [1] [0] [0] [1] [] [])

theorem rc_lhs_0 (i : (⟨2, ![M, N]⟩ : Shape).Idx) (q : (rc wf).contr.Idx) : ((rc wf).lhsIdx i q 0).val = (i 0).val := by
  unfold DotDims.lhsIdx
  rw [dif_neg (show ¬(0 : Fin (⟨2, ![M, K]⟩ : Shape).rank) ∈ (rc wf).lhsBatch by simp [rc]),
    dif_pos (show (0 : Fin (⟨2, ![M, K]⟩ : Shape).rank) ∈ (rc wf).lhsNonContracting by simp [rc])]
  rfl
theorem rc_lhs_1 (i : (⟨2, ![M, N]⟩ : Shape).Idx) (q : (rc wf).contr.Idx) :
    ((rc wf).lhsIdx i q 1).val = (q ⟨0, Nat.one_pos⟩).val :=
  (rc wf).lhsIdx_val_of_single rfl i q
theorem rc_rhs_0 (i : (⟨2, ![M, N]⟩ : Shape).Idx) (q : (rc wf).contr.Idx) :
    ((rc wf).rhsIdx i q 0).val = (q ⟨0, Nat.one_pos⟩).val :=
  (rc wf).rhsIdx_val_of_single rfl i q
theorem rc_rhs_1 (i : (⟨2, ![M, N]⟩ : Shape).Idx) (q : (rc wf).contr.Idx) : ((rc wf).rhsIdx i q 1).val = (i 1).val := by
  unfold DotDims.rhsIdx
  rw [dif_neg (show ¬(1 : Fin (⟨2, ![K, N]⟩ : Shape).rank) ∈ (rc wf).rhsBatch by simp [rc]),
    dif_pos (show (1 : Fin (⟨2, ![K, N]⟩ : Shape).rank) ∈ (rc wf).rhsNonContracting by simp [rc])]
  rfl

/-- The contraction sum of a rows × columns product at (r, c) runs over the pairs (r, k), (k, c). -/
theorem sum_rc {β : Type} [AddCommMonoid β] (f : (⟨2, ![M, K]⟩ : Shape).Idx → (⟨2, ![K, N]⟩ : Shape).Idx → β)
    (r : Fin M) (c : Fin N) :
    ∑ k : (rc wf).contr.Idx, f ((rc wf).lhsIdx (ix2 r c) k) ((rc wf).rhsIdx (ix2 r c) k)
      = ∑ k : Fin K, f (ix2 r k) (ix2 k c) := by
  rw [← Equiv.sum_comp (contrEquiv1 (rc wf) K rfl rfl).symm]
  refine Finset.sum_congr rfl fun k _ => ?_
  have hk := contrEquiv1_symm_val (rc wf) K rfl rfl k
  have el : (rc wf).lhsIdx (ix2 r c) ((contrEquiv1 (rc wf) K rfl rfl).symm k) = ix2 r k := funext fun a => Fin.ext (by
    match a with
    | ⟨0, _⟩ => exact rc_lhs_0 wf _ _
    | ⟨1, _⟩ => exact (rc_lhs_1 wf _ _).trans hk)
  have er : (rc wf).rhsIdx (ix2 r c) ((contrEquiv1 (rc wf) K rfl rfl).symm k) = ix2 k c := funext fun a => Fin.ext (by
    match a with
    | ⟨0, _⟩ => exact (rc_rhs_0 wf _ _).trans hk
    | ⟨1, _⟩ => exact rc_rhs_1 wf _ _)
  rw [el, er]

/-- The same for any record with those axis lists. -/
theorem sum_contr_rc {β : Type} [AddCommMonoid β] (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (f : (⟨2, ![M, K]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 r k) (ix2 k c) := by
  obtain ⟨lc, rc', ln, rn, lb, rb, wf'⟩ := d
  simp only at hlc hrc hln hrn hlb hrb
  subst hlc hrc hln hrn hlb hrb
  exact sum_rc wf' f r c

/-! ## Left operand contracted over its rows: left axis 0 against right axis 0 -/

/-- The dimension numbers of a [K, M]ᵀ × [K, N] product. -/
def cc (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ := ⟨[0], [0], [1], [1], [], [], wf⟩

variable (wg : DotDims.WF ⟨2, ![K, M]⟩ ⟨2, ![K, N]⟩ ⟨2, ![M, N]⟩ [0] [0] [1] [1] [] [])

theorem cc_lhs_0 (i : (⟨2, ![M, N]⟩ : Shape).Idx) (q : (cc wg).contr.Idx) :
    ((cc wg).lhsIdx i q 0).val = (q ⟨0, Nat.one_pos⟩).val :=
  (cc wg).lhsIdx_val_of_single rfl i q
theorem cc_lhs_1 (i : (⟨2, ![M, N]⟩ : Shape).Idx) (q : (cc wg).contr.Idx) : ((cc wg).lhsIdx i q 1).val = (i 0).val := by
  unfold DotDims.lhsIdx
  rw [dif_neg (show ¬(1 : Fin (⟨2, ![K, M]⟩ : Shape).rank) ∈ (cc wg).lhsBatch by simp [cc]),
    dif_pos (show (1 : Fin (⟨2, ![K, M]⟩ : Shape).rank) ∈ (cc wg).lhsNonContracting by simp [cc])]
  rfl
theorem cc_rhs_0 (i : (⟨2, ![M, N]⟩ : Shape).Idx) (q : (cc wg).contr.Idx) :
    ((cc wg).rhsIdx i q 0).val = (q ⟨0, Nat.one_pos⟩).val :=
  (cc wg).rhsIdx_val_of_single rfl i q
theorem cc_rhs_1 (i : (⟨2, ![M, N]⟩ : Shape).Idx) (q : (cc wg).contr.Idx) : ((cc wg).rhsIdx i q 1).val = (i 1).val := by
  unfold DotDims.rhsIdx
  rw [dif_neg (show ¬(1 : Fin (⟨2, ![K, N]⟩ : Shape).rank) ∈ (cc wg).rhsBatch by simp [cc]),
    dif_pos (show (1 : Fin (⟨2, ![K, N]⟩ : Shape).rank) ∈ (cc wg).rhsNonContracting by simp [cc])]
  rfl

/-- The contraction sum at (r, c) runs over the pairs (k, r), (k, c). -/
theorem sum_cc {β : Type} [AddCommMonoid β] (f : (⟨2, ![K, M]⟩ : Shape).Idx → (⟨2, ![K, N]⟩ : Shape).Idx → β)
    (r : Fin M) (c : Fin N) :
    ∑ k : (cc wg).contr.Idx, f ((cc wg).lhsIdx (ix2 r c) k) ((cc wg).rhsIdx (ix2 r c) k)
      = ∑ k : Fin K, f (ix2 k r) (ix2 k c) := by
  rw [← Equiv.sum_comp (contrEquiv1 (cc wg) K rfl rfl).symm]
  refine Finset.sum_congr rfl fun k _ => ?_
  have hk := contrEquiv1_symm_val (cc wg) K rfl rfl k
  have el : (cc wg).lhsIdx (ix2 r c) ((contrEquiv1 (cc wg) K rfl rfl).symm k) = ix2 k r := funext fun a => Fin.ext (by
    match a with
    | ⟨0, _⟩ => exact (cc_lhs_0 wg _ _).trans hk
    | ⟨1, _⟩ => exact cc_lhs_1 wg _ _)
  have er : (cc wg).rhsIdx (ix2 r c) ((contrEquiv1 (cc wg) K rfl rfl).symm k) = ix2 k c := funext fun a => Fin.ext (by
    match a with
    | ⟨0, _⟩ => exact (cc_rhs_0 wg _ _).trans hk
    | ⟨1, _⟩ => exact cc_rhs_1 wg _ _)
  rw [el, er]

/-- The same for any record with those axis lists. -/
theorem sum_contr_cc {β : Type} [AddCommMonoid β] (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = [])
    (f : (⟨2, ![K, M]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 k r) (ix2 k c) := by
  obtain ⟨lc, rc', ln, rn, lb, rb, wf'⟩ := d
  simp only at hlc hrc hln hrn hlb hrb
  subst hlc hrc hln hrn hlb hrb
  exact sum_cc wf' f r c

/-! ## The products themselves, at an output index -/

/-- A rows × columns block product into the zero accumulator, at (r, c): the sum over k of A (r, k) · B (k, c). -/
theorem matmul_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 r k) * B (ix2 k c) := by
  simp only [matmul]
  rw [Ideal.matmul_constant_zero_apply]
  exact sum_contr_rc d hlc hrc hln hrn hlb hrb (fun a b => A a * B b) r c

/-- A block product whose left operand is contracted over its rows, into the zero accumulator, at (r, c): the sum over
    k of A (k, r) · B (k, c). -/
theorem matmul_cc_apply {φ₁ φ₂ : FTy} (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = []) (prec : Option ContractPrecision)
    (A : FVec Ideal ⟨2, ![K, M]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 k r) * B (ix2 k c) := by
  simp only [matmul]
  rw [Ideal.matmul_constant_zero_apply]
  exact sum_contr_cc d hlc hrc hln hrn hlb hrb (fun a b => A a * B b) r c

/-- The host's rows × columns product at (r, c): the same sum. -/
theorem dotGeneral_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    Host.dotGeneral d prec A B (ix2 r c) = ∑ k : Fin K, A (ix2 r k) * B (ix2 k c) := by
  simp only [Host.dotGeneral]
  rw [Ideal.dotGeneral_apply]
  exact sum_contr_rc d hlc hrc hln hrn hlb hrb (fun a b => A a * B b) r c

end Cert.Lib

end
-- ==== Proof.LibSage.lean ====
/-
  A mean-aggregating graph layer over the extended reals, for any extents: the dense layer max (A · Wl + X · Wr + b, 0)
  and the output projection H · Wo + bo as whole-array functions (`layerFn`, `outFn`), their host spelling
  (`host_layer`, `host_out`: dot_general, a bias broadcast from a vector, relu) and their block-body spelling
  (`block_layer`, `block_out`: operands narrowed to sixteen bits, products into zeros, a one-row bias), row locality
  (`layerAt_row`, `outAt_row`), and the mean by division against the mean by the reciprocal (`mean_div_eq_mul`,
  over `count_real`: a guarded count of scattered ones is a nonzero real).

  The arithmetic both programs share.

  A layer takes, for every node n, the mean A[n, :] of its in-neighbours' features and its own features X[n, :], and
  returns  max (A[n, :] · Wl + X[n, :] · Wr + b, 0);  the output projection returns  H[n, :] · Wo + bo.  Every entry of
  a layer's result depends on ONE row of A and of X, so the same formula describes a block of rows and the whole array.
  One program adds the bias before the second product and the other after it: addition of extended reals is commutative
  and associative, so the two orders agree at the infinities too.

  The mean divides each aggregated row by c[n] = max (number of edges into n, 1).  The count is a finite sum of ones, a
  real number, so c[n] is a real number that is at least 1; dividing an extended real by a nonzero real IS multiplying it
  by the reciprocal, so  a / c[n] = a · (1 / c[n])  for every extended real a.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«134266_j56255481643658_1_alg».proof.Proof.LibFinite
import proofs.«134266_j56255481643658_1_alg».proof.Proof.LibConsts
import proofs.«134266_j56255481643658_1_alg».proof.Proof.LibDotSum

noncomputable section

namespace Cert.Sage

open Idealize.ShloMosaic Idealize.ShloMosaic.ValueIdx Cert.LibFinite
open scoped BigOperators

variable {M K N : Nat}

/-! ## The layer and the output projection, entry by entry -/

/-- Entry (r, j) of a layer: the two row-by-column products, the bias, the positive part. -/
def layerAt (A X : (⟨2, ![M, K]⟩ : Shape).Idx → EReal) (Wl Wr : (⟨2, ![K, N]⟩ : Shape).Idx → EReal)
    (b : Fin N → EReal) (r : Fin M) (j : Fin N) : EReal :=
  max (((∑ k : Fin K, A (ix2 r k) * Wl (ix2 k j)) + ∑ k : Fin K, X (ix2 r k) * Wr (ix2 k j)) + b j) 0

/-- A layer as one array. -/
def layerFn (A X : (⟨2, ![M, K]⟩ : Shape).Idx → EReal) (Wl Wr : (⟨2, ![K, N]⟩ : Shape).Idx → EReal)
    (b : Fin N → EReal) : (⟨2, ![M, N]⟩ : Shape).Idx → EReal :=
  fun i => layerAt A X Wl Wr b (i 0) (i 1)

theorem layerFn_ix2 (A X : (⟨2, ![M, K]⟩ : Shape).Idx → EReal) (Wl Wr : (⟨2, ![K, N]⟩ : Shape).Idx → EReal)
    (b : Fin N → EReal) (r : Fin M) (j : Fin N) : layerFn A X Wl Wr b (ix2 r j) = layerAt A X Wl Wr b r j := rfl

/-- Entry (r, j) of the output projection. -/
def outAt (H : (⟨2, ![M, K]⟩ : Shape).Idx → EReal) (Wo : (⟨2, ![K, N]⟩ : Shape).Idx → EReal) (bo : Fin N → EReal)
    (r : Fin M) (j : Fin N) : EReal :=
  (∑ k : Fin K, H (ix2 r k) * Wo (ix2 k j)) + bo j

/-- The output projection as one array. -/
def outFn (H : (⟨2, ![M, K]⟩ : Shape).Idx → EReal) (Wo : (⟨2, ![K, N]⟩ : Shape).Idx → EReal) (bo : Fin N → EReal) :
    (⟨2, ![M, N]⟩ : Shape).Idx → EReal :=
  fun i => outAt H Wo bo (i 0) (i 1)

theorem outFn_ix2 (H : (⟨2, ![M, K]⟩ : Shape).Idx → EReal) (Wo : (⟨2, ![K, N]⟩ : Shape).Idx → EReal) (bo : Fin N → EReal)
    (r : Fin M) (j : Fin N) : outFn H Wo bo (ix2 r j) = outAt H Wo bo r j := rfl

/-- Row r of a block is row n of the array: a layer's entry in that row is the same number. -/
theorem layerAt_row {Mb : Nat} (Ab Xb : (⟨2, ![Mb, K]⟩ : Shape).Idx → EReal) (A X : (⟨2, ![M, K]⟩ : Shape).Idx → EReal)
    (Wlb Wrb Wl Wr : (⟨2, ![K, N]⟩ : Shape).Idx → EReal) (bb b : Fin N → EReal) (r : Fin Mb) (n : Fin M)
    (hA : ∀ k, Ab (ix2 r k) = A (ix2 n k)) (hX : ∀ k, Xb (ix2 r k) = X (ix2 n k))
    (hWl : ∀ k j, Wlb (ix2 k j) = Wl (ix2 k j)) (hWr : ∀ k j, Wrb (ix2 k j) = Wr (ix2 k j)) (hb : ∀ j, bb j = b j)
    (j : Fin N) : layerAt Ab Xb Wlb Wrb bb r j = layerAt A X Wl Wr b n j := by
  unfold layerAt
  rw [hb j]
  simp only [hA, hX, hWl, hWr]

/-- The same for the output projection. -/
theorem outAt_row {Mb : Nat} (Hb : (⟨2, ![Mb, K]⟩ : Shape).Idx → EReal) (H : (⟨2, ![M, K]⟩ : Shape).Idx → EReal)
    (Wob Wo : (⟨2, ![K, N]⟩ : Shape).Idx → EReal) (bob bo : Fin N → EReal) (r : Fin Mb) (n : Fin M)
    (hH : ∀ k, Hb (ix2 r k) = H (ix2 n k)) (hWo : ∀ k j, Wob (ix2 k j) = Wo (ix2 k j)) (hb : ∀ j, bob j = bo j)
    (j : Fin N) : outAt Hb Wob bob r j = outAt H Wo bo n j := by
  unfold outAt
  rw [hb j]
  simp only [hH, hWo]

/-! ## Bias rows and the zero splat read at an index -/

/-- A length-N vector laid out as one row and repeated down M rows reads, at (r, j), its entry j. -/
theorem bias_apply {α : Type} (h1 : (⟨1, ![N]⟩ : Shape).BroadcastsInDim ⟨2, ![1, N]⟩ ![1])
    (h2 : (⟨2, ![1, N]⟩ : Shape).BroadcastsInDim ⟨2, ![M, N]⟩ ![0, 1]) (v : (⟨1, ![N]⟩ : Shape).Idx → α)
    (r : Fin M) (j : Fin N) :
    broadcastInDim ⟨2, ![M, N]⟩ ![0, 1] h2 (broadcastInDim ⟨2, ![1, N]⟩ ![1] h1 v) (ix2 r j) = v (ix1 j) := by
  rw [broadcastInDim_apply ![0, 1] h2 _ (ix2 r j) (ix2 (0 : Fin 1) j) (fun ax => by
    match ax with
    | ⟨0, _⟩ => rfl
    | ⟨1, _⟩ =>
      show j.val = if N = 1 then 0 else j.val
      split
      · have := j.isLt; omega
      · rfl)]
  exact broadcastInDim_apply ![1] h1 v (ix2 (0 : Fin 1) j) (ix1 j) (fun ax => by
    match ax with
    | ⟨0, _⟩ =>
      show j.val = if N = 1 then 0 else j.val
      split
      · have := j.isLt; omega
      · rfl)

/-! ## The host's spelling of a layer and of the output projection -/

section Host

variable (d : DotDims ⟨2, ![M, K]⟩ ⟨2, ![K, N]⟩ ⟨2, ![M, N]⟩)
  (hlc : d.lhsContracting = [1]) (hrc : d.rhsContracting = [0])
  (hln : d.lhsNonContracting = [0]) (hrn : d.rhsNonContracting = [1])
  (hlb : d.lhsBatch = []) (hrb : d.rhsBatch = [])
  (h1 : (⟨1, ![N]⟩ : Shape).BroadcastsInDim ⟨2, ![1, N]⟩ ![1])
  (h2 : (⟨2, ![1, N]⟩ : Shape).BroadcastsInDim ⟨2, ![M, N]⟩ ![0, 1])
  (h0 : (⟨0, ![]⟩ : Shape).BroadcastsInDim ⟨2, ![M, N]⟩ ![])

include hlc hrc hln hrn hlb hrb in
/-- (A · Wl + b) + X · Wr, then the positive part: the layer, the bias moved past the second product. -/
theorem host_layer (A X : FVec Ideal ⟨2, ![M, K]⟩ .f32) (Wl Wr : FVec Ideal ⟨2, ![K, N]⟩ .f32)
    (bv : FVec Ideal ⟨1, ![N]⟩ .f32) :
    maximumf (addf (addf (Host.dotGeneral d none A Wl)
        (broadcastInDim ⟨2, ![M, N]⟩ ![0, 1] h2 (broadcastInDim ⟨2, ![1, N]⟩ ![1] h1 bv)))
        (Host.dotGeneral d none X Wr))
      (broadcastInDim ⟨2, ![M, N]⟩ ![] h0 (constant ⟨0, ![]⟩ .f32 0x00000000#32))
    = layerFn A X Wl Wr (fun j => bv (ix1 j)) := by
  funext i
  obtain ⟨r, j, rfl⟩ : ∃ (r : Fin M) (j : Fin N), i = ix2 r j := ⟨i 0, i 1, eq_ix2 i⟩
  show max ((Host.dotGeneral d none A Wl (ix2 r j)
      + broadcastInDim ⟨2, ![M, N]⟩ ![0, 1] h2 (broadcastInDim ⟨2, ![1, N]⟩ ![1] h1 bv) (ix2 r j))
      + Host.dotGeneral d none X Wr (ix2 r j)) (Ideal.ofBits .f32 0x00000000#32) = layerAt A X Wl Wr (fun j => bv (ix1 j)) r j
  rw [Cert.Lib.dotGeneral_rc_apply d hlc hrc hln hrn hlb hrb, Cert.Lib.dotGeneral_rc_apply d hlc hrc hln hrn hlb hrb,
    bias_apply, Cert.LibConsts.ofBits_zero]
  unfold layerAt
  rw [add_right_comm]

include hlc hrc hln hrn hlb hrb in
/-- H · Wo + bo: the output projection. -/
theorem host_out (H : FVec Ideal ⟨2, ![M, K]⟩ .f32) (Wo : FVec Ideal ⟨2, ![K, N]⟩ .f32) (bv : FVec Ideal ⟨1, ![N]⟩ .f32) :
    addf (Host.dotGeneral d none H Wo)
      (broadcastInDim ⟨2, ![M, N]⟩ ![0, 1] h2 (broadcastInDim ⟨2, ![1, N]⟩ ![1] h1 bv))
    = outFn H Wo (fun j => bv (ix1 j)) := by
  funext i
  obtain ⟨r, j, rfl⟩ : ∃ (r : Fin M) (j : Fin N), i = ix2 r j := ⟨i 0, i 1, eq_ix2 i⟩
  show Host.dotGeneral d none H Wo (ix2 r j)
      + broadcastInDim ⟨2, ![M, N]⟩ ![0, 1] h2 (broadcastInDim ⟨2, ![1, N]⟩ ![1] h1 bv) (ix2 r j) = outAt H Wo (fun j => bv (ix1 j)) r j
  rw [Cert.Lib.dotGeneral_rc_apply d hlc hrc hln hrn hlb hrb, bias_apply]
  rfl

end Host

/-! ## A block body's spelling of a layer and of the output projection -/

section Block

variable (d : DotDims ⟨2, ![M, K]⟩ ⟨2, ![K, N]⟩ ⟨2, ![M, N]⟩)
  (hlc : d.lhsContracting = [1]) (hrc : d.rhsContracting = [0])
  (hln : d.lhsNonContracting = [0]) (hrn : d.rhsNonContracting = [1])
  (hlb : d.lhsBatch = []) (hrb : d.rhsBatch = [])
  (hb : (⟨2, ![1, N]⟩ : Shape).Broadcasts ⟨2, ![M, N]⟩)

include hlc hrc hln hrn hlb hrb in
/-- (A · Wl + X · Wr) + b, then the positive part, the four operands narrowed to sixteen bits first (no change over
    the extended reals) and each product accumulated into zeros. -/
theorem block_layer (hbits : FTy.bf16.bits < FTy.f32.bits) (A X : FVec Ideal ⟨2, ![M, K]⟩ .f32) (Wl Wr : FVec Ideal ⟨2, ![K, N]⟩ .f32)
    (b : FVec Ideal ⟨2, ![1, N]⟩ .f32) :
    maximumf (addf (addf
        (matmul d none (truncf .bf16 A hbits) (truncf .bf16 Wl hbits) (constant ⟨2, ![M, N]⟩ .f32 0x00000000#32))
        (matmul d none (truncf .bf16 X hbits) (truncf .bf16 Wr hbits) (constant ⟨2, ![M, N]⟩ .f32 0x00000000#32)))
        (broadcastTo ⟨2, ![M, N]⟩ b hb))
      (broadcast ⟨2, ![M, N]⟩ (Scalar.ofBits (F := Ideal) .f32 0x00000000#32))
    = layerFn A X Wl Wr (fun j => b (ix2 (0 : Fin 1) j)) := by
  funext i
  obtain ⟨r, j, rfl⟩ : ∃ (r : Fin M) (j : Fin N), i = ix2 r j := ⟨i 0, i 1, eq_ix2 i⟩
  show max ((matmul d none (truncf .bf16 A hbits) (truncf .bf16 Wl hbits) (constant ⟨2, ![M, N]⟩ .f32 0x00000000#32) (ix2 r j)
      + matmul d none (truncf .bf16 X hbits) (truncf .bf16 Wr hbits) (constant ⟨2, ![M, N]⟩ .f32 0x00000000#32) (ix2 r j))
      + broadcastTo ⟨2, ![M, N]⟩ b hb (ix2 r j)) (Ideal.ofBits .f32 0x00000000#32) = layerAt A X Wl Wr (fun j => b (ix2 (0 : Fin 1) j)) r j
  rw [Cert.Lib.matmul_rc_apply d hlc hrc hln hrn hlb hrb, Cert.Lib.matmul_rc_apply d hlc hrc hln hrn hlb hrb,
    broadcastTo_1b_ab_apply, Cert.LibConsts.ofBits_zero]
  rfl

include hlc hrc hln hrn hlb hrb in
/-- H · Wo + bo with H and Wo narrowed first and the product accumulated into zeros. -/
theorem block_out (hbits : FTy.bf16.bits < FTy.f32.bits) (H : FVec Ideal ⟨2, ![M, K]⟩ .f32) (Wo : FVec Ideal ⟨2, ![K, N]⟩ .f32)
    (b : FVec Ideal ⟨2, ![1, N]⟩ .f32) :
    addf (matmul d none (truncf .bf16 H hbits) (truncf .bf16 Wo hbits) (constant ⟨2, ![M, N]⟩ .f32 0x00000000#32))
      (broadcastTo ⟨2, ![M, N]⟩ b hb)
    = outFn H Wo (fun j => b (ix2 (0 : Fin 1) j)) := by
  funext i
  obtain ⟨r, j, rfl⟩ : ∃ (r : Fin M) (j : Fin N), i = ix2 r j := ⟨i 0, i 1, eq_ix2 i⟩
  show matmul d none (truncf .bf16 H hbits) (truncf .bf16 Wo hbits) (constant ⟨2, ![M, N]⟩ .f32 0x00000000#32) (ix2 r j)
      + broadcastTo ⟨2, ![M, N]⟩ b hb (ix2 r j) = outAt H Wo (fun j => b (ix2 (0 : Fin 1) j)) r j
  rw [Cert.Lib.matmul_rc_apply d hlc hrc hln hrn hlb hrb, broadcastTo_1b_ab_apply]
  rfl

end Block

/-! ## The in-degree, and the mean by division and by the reciprocal -/

/-- max (number of updates landing on n, 1) is a real number other than zero: ones accumulated into zeros. -/
theorem count_real {sN sE1 sE : Shape} {w : Nat} (sc : ScatterDims sN sE1 sE) (idx : IVec sE1 w)
    (Z One : FVec Ideal sN .f32) (O : FVec Ideal sE .f32) (hZ : ∀ n, Z n = 0) (hO : ∀ j, O j = 1)
    (hOne : ∀ n, One n = 1) (n : sN.Idx) :
    ∃ r : ℝ, r ≠ 0 ∧ maximumf (Host.scatterAdd sc Z idx O) One n = (r : EReal) := by
  have hs : IsFin (Host.scatterAdd sc Z idx O n) := by
    show IsFin (Z n + ∑ j ∈ Finset.univ.filter (fun j => sc.resultIdx? j idx = some n), O j)
    rw [hZ]
    exact isFin_zero.add (isFin_sum _ _ fun j _ => by rw [hO]; exact isFin_one)
  obtain ⟨a, ha⟩ := isFin_iff.mp hs
  refine ⟨max a 1, (lt_of_lt_of_le one_pos (le_max_right a 1)).ne', ?_⟩
  show max (Host.scatterAdd sc Z idx O n) (One n) = _
  rw [ha, hOne, ← EReal.coe_one]
  exact (EReal.coe_strictMono.monotone.map_max).symm

/-- Two broadcasts in a row read their operand at one index. -/
theorem bcast2_reads {sN sN1 sNW : Shape} {d1 : Fin sN.rank → Fin sN1.rank} (h1 : sN.BroadcastsInDim sN1 d1)
    {d2 : Fin sN1.rank → Fin sNW.rank} (h2 : sN1.BroadcastsInDim sNW d2) :
    ∃ π : sNW.Idx → sN.Idx, ∀ (v : sN.Idx → EReal) (i : sNW.Idx),
      broadcastInDim sNW d2 h2 (broadcastInDim sN1 d1 h1 v) i = v (π i) :=
  ⟨_, fun _ _ => rfl⟩

/-- Dividing the aggregate by the guarded in-degree is multiplying it by the guarded in-degree's reciprocal. -/
theorem mean_div_eq_mul {s0 sN sN1 sNW sE1 sE : Shape} {w : Nat} (sc : ScatterDims sN sE1 sE) (idx : IVec sE1 w)
    {d0N : Fin s0.rank → Fin sN.rank} (h0N : s0.BroadcastsInDim sN d0N)
    {d0E : Fin s0.rank → Fin sE.rank} (h0E : s0.BroadcastsInDim sE d0E)
    {d1 : Fin sN.rank → Fin sN1.rank} (h1 : sN.BroadcastsInDim sN1 d1)
    {d2 : Fin sN1.rank → Fin sNW.rank} (h2 : sN1.BroadcastsInDim sNW d2) (agg : FVec Ideal sNW .f32) :
    Host.divf agg (broadcastInDim sNW d2 h2 (broadcastInDim sN1 d1 h1
      (maximumf (Host.scatterAdd sc (broadcastInDim sN d0N h0N (constant s0 .f32 0x00000000#32)) idx
          (broadcastInDim sE d0E h0E (constant s0 .f32 0x3F800000#32)))
        (broadcastInDim sN d0N h0N (constant s0 .f32 0x3F800000#32)))))
    = mulf agg (broadcastInDim sNW d2 h2 (broadcastInDim sN1 d1 h1
      (Host.divf (broadcastInDim sN d0N h0N (constant s0 .f32 0x3F800000#32))
        (maximumf (Host.scatterAdd sc (broadcastInDim sN d0N h0N (constant s0 .f32 0x00000000#32)) idx
            (broadcastInDim sE d0E h0E (constant s0 .f32 0x3F800000#32)))
          (broadcastInDim sN d0N h0N (constant s0 .f32 0x3F800000#32)))))) := by
  obtain ⟨π, hπ⟩ := bcast2_reads h1 h2
  funext i
  show Ideal.div (agg i) (broadcastInDim sNW d2 h2 (broadcastInDim sN1 d1 h1 _) i)
    = agg i * broadcastInDim sNW d2 h2 (broadcastInDim sN1 d1 h1 _) i
  rw [hπ, hπ]
  obtain ⟨r, hr, hc⟩ := count_real sc idx (broadcastInDim sN d0N h0N (constant s0 .f32 0x00000000#32))
    (broadcastInDim sN d0N h0N (constant s0 .f32 0x3F800000#32)) (broadcastInDim sE d0E h0E (constant s0 .f32 0x3F800000#32))
    (fun _ => Cert.LibConsts.ofBits_zero) (fun _ => Cert.LibConsts.ofBits_one) (fun _ => Cert.LibConsts.ofBits_one) (π i)
  show Ideal.div (agg i) _ = agg i * Ideal.div (Ideal.ofBits .f32 0x3F800000#32) _
  rw [hc, Cert.LibConsts.ofBits_one, Ideal.div_coe hr, Ideal.div_coe hr, one_mul]

end Cert.Sage

end
-- ==== Proof.KernelBody.lean ====
/-
  What one grid point computes, over the extended reals: the first kernel's block of rows is the layer of its two
  input blocks, the second kernel's the output projection of such a layer. Narrowing an operand to sixteen bits changes
  nothing over the extended reals, a product accumulated into zeros is the plain sum over the contracted axis, and a
  one-row bias repeated down the block reads its entry of that row.
-/
import proofs.«134266_j56255481643658_1_alg».proof.Proof.Gen.KernelIdeal.Skeleton
import proofs.«134266_j56255481643658_1_alg».proof.Proof.LibSage

noncomputable section

namespace Cert.KernelIdeal.Body

open Cert.KernelIdeal Cert.KernelIdeal.Gen Idealize.ShloMosaic Idealize.ShloMosaic.ValueIdx Cert.Sage

/-- The first kernel's stored block: the layer of the mean block and the feature block. -/
theorem pay0_eq (a x : Vec Ideal S5000x128 .f32) (wl wr : Vec Ideal S128x64 .f32) (b : Vec Ideal S1x64 .f32) :
    k0_pay1 (F := Ideal) a x wl wr b = layerFn a x wl wr (fun j => b (ix2 (0 : Fin 1) j)) := by
  unfold k0_pay1
  simp only [shapeCast_self]
  exact block_layer dot_S5000x128_S128x64_S5000x64_1_0_0_1_n_n rfl rfl rfl rfl rfl rfl broadcasts_S1x64_S5000x64
    bitsLt_bf16_f32 a x wl wr b

/-- The second kernel's stored block: the output projection of the layer of the mean block and the hidden block. -/
theorem pay1_eq (a h : Vec Ideal S5000x64 .f32) (wl wr : Vec Ideal S64x64 .f32) (b : Vec Ideal S1x64 .f32)
    (wo : Vec Ideal S64x112 .f32) (bo : Vec Ideal S1x112 .f32) :
    k1_pay1 (F := Ideal) a h wl wr b wo bo
      = outFn (layerFn a h wl wr (fun j => b (ix2 (0 : Fin 1) j))) wo (fun j => bo (ix2 (0 : Fin 1) j)) := by
  unfold k1_pay1
  simp only [shapeCast_self]
  rw [block_layer dot_S5000x64_S64x64_S5000x64_1_0_0_1_n_n rfl rfl rfl rfl rfl rfl broadcasts_S1x64_S5000x64
    bitsLt_bf16_f32 a h wl wr b]
  exact block_out dot_S5000x64_S64x112_S5000x112_1_0_0_1_n_n rfl rfl rfl rfl rfl rfl broadcasts_S1x112_S5000x112
    bitsLt_bf16_f32 _ wo bo

end Cert.KernelIdeal.Body

end
-- ==== Proof.Regions.lean ====
/-
  Each kernel region as one function of the arrays it is entered with. A grid point t takes rows 5000 t … 5000 t + 4999 of
  the two row-blocked operands and the weight and bias arrays whole, and writes back those rows of the result. An entry
  of a layer (or of the output projection of a layer) depends on one row of the row-blocked operands only, so what point
  t writes back is rows 5000 t … 5000 t + 4999 of the layer of the WHOLE arrays; the twenty points' blocks tile the 100000
  rows, so the result array ends as that layer.
-/
import proofs.«134266_j56255481643658_1_alg».proof.Proof.Gen.KernelIdeal.Frame
import proofs.«134266_j56255481643658_1_alg».proof.Proof.KernelBody
import Idealize.ShloMosaic.Lib.Pipeline.Value

set_option maxRecDepth 16384

noncomputable section

namespace Cert.KernelIdeal.Region

open Cert.KernelIdeal Cert.KernelIdeal.Gen Cert.KernelIdeal.Body Cert.Sage
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## Region 0: the first layer -/

/-- The first region's index maps over its grid: the row-blocked windows sit at block row t, the others at the origin. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The first layer of the arrays region 0 is entered with. -/
abbrev G0 (c : Dev nD) : S100000x64.Idx → EReal :=
  layerFn (V c main_v24) (V c main_arg0) (V c main_arg2) (V c main_arg4) (fun j => V c main_v25 (ix2 (0 : Fin 1) j))

/-- What point t writes back is block t of the first layer of the entry arrays. -/
theorem flushed0 (c : Dev nD) (t : Fin cfg0.N) :
    (dat0 V c).flushed 5 t = ((cfg0.win 5).blk t).view.read (Elt Ideal) (G0 V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x64) hz, View.ld_unit_zero (S := S1x64) hz]
  rw [pay0_eq]
  obtain ⟨e00, e01, e10, e11, e20, e21, e30, e31, e40, e41, e50, e51⟩ := idx0 t
  funext y
  show layerAt (iblk0 V c 0 t) (iblk0 V c 1 t) (iblk0 V c 2 t) (iblk0 V c 4 t) (fun j => iblk0 V c 3 t (ix2 (0 : Fin 1) j)) (y 0) (y 1)
    = layerAt (V c main_v24) (V c main_arg0) (V c main_arg2) (V c main_arg4) (fun j => V c main_v25 (ix2 (0 : Fin 1) j))
        ((((cfg0.win 5).blk t).view.emb y) 0) ((((cfg0.win 5).blk t).view.emb y) 1)
  have hj : (((cfg0.win 5).blk t).view.emb y) 1 = y 1 := Fin.ext (by
    show win0_5.index t (1 : Fin 2) * 64 + 1 * (y 1).val = (y 1).val
    omega)
  rw [hj]
  refine layerAt_row _ _ _ _ _ _ _ _ _ _ (y 0) _ (fun k => ?_) (fun k => ?_) (fun k j => ?_) (fun k j => ?_) (fun j => ?_) (y 1)
  · show V c main_v24 (((cfg0.win 0).blk t).view.emb (ix2 (y 0) k)) = V c main_v24 (ix2 ((((cfg0.win 5).blk t).view.emb y) 0) k)
    refine congrArg (V c main_v24) (funext fun a => Fin.ext ?_)
    match a with
    | ⟨0, _⟩ => show win0_0.index t (0 : Fin 2) * 5000 + 1 * (y 0).val = win0_5.index t (0 : Fin 2) * 5000 + 1 * (y 0).val; omega
    | ⟨1, _⟩ => show win0_0.index t (1 : Fin 2) * 128 + 1 * k.val = k.val; omega
  · show V c main_arg0 (((cfg0.win 1).blk t).view.emb (ix2 (y 0) k)) = V c main_arg0 (ix2 ((((cfg0.win 5).blk t).view.emb y) 0) k)
    refine congrArg (V c main_arg0) (funext fun a => Fin.ext ?_)
    match a with
    | ⟨0, _⟩ => show win0_1.index t (0 : Fin 2) * 5000 + 1 * (y 0).val = win0_5.index t (0 : Fin 2) * 5000 + 1 * (y 0).val; omega
    | ⟨1, _⟩ => show win0_1.index t (1 : Fin 2) * 128 + 1 * k.val = k.val; omega
  · show V c main_arg2 (((cfg0.win 2).blk t).view.emb (ix2 k j)) = V c main_arg2 (ix2 k j)
    refine congrArg (V c main_arg2) (funext fun a => Fin.ext ?_)
    match a with
    | ⟨0, _⟩ => show win0_2.index t (0 : Fin 2) * 128 + 1 * k.val = k.val; omega
    | ⟨1, _⟩ => show win0_2.index t (1 : Fin 2) * 64 + 1 * j.val = j.val; omega
  · show V c main_arg4 (((cfg0.win 4).blk t).view.emb (ix2 k j)) = V c main_arg4 (ix2 k j)
    refine congrArg (V c main_arg4) (funext fun a => Fin.ext ?_)
    match a with
    | ⟨0, _⟩ => show win0_4.index t (0 : Fin 2) * 128 + 1 * k.val = k.val; omega
    | ⟨1, _⟩ => show win0_4.index t (1 : Fin 2) * 64 + 1 * j.val = j.val; omega
  · show V c main_v25 (((cfg0.win 3).blk t).view.emb (ix2 (0 : Fin 1) j)) = V c main_v25 (ix2 (0 : Fin 1) j)
    refine congrArg (V c main_v25) (funext fun a => Fin.ext ?_)
    match a with
    | ⟨0, _⟩ => show win0_3.index t (0 : Fin 2) * 1 + 1 * 0 = 0; omega
    | ⟨1, _⟩ => show win0_3.index t (1 : Fin 2) * 64 + 1 * j.val = j.val; omega

/-- An index of the result array is in point t's block iff each coordinate is in the block's range on its axis. -/
theorem mem_blk0 (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v26).slice (win0_5.rect t)).set ↔ _
  rw [View.set_slice_whole, Rect.mem_set_unit]
  exact Iff.rfl

/-- Row n lies in the block of point n / 5000. -/
theorem cover0 (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  have ht : (i 0).val / 5000 < 20 := by omega
  refine ⟨⟨(i 0).val / 5000, ht⟩, flush0_5 _, ?_⟩
  obtain ⟨-, -, -, -, -, -, -, -, -, -, e50, e51⟩ := idx0 ⟨(i 0).val / 5000, ht⟩
  rw [mem_blk0]
  intro a
  match a with
  | ⟨0, _⟩ =>
    show win0_5.index ⟨(i 0).val / 5000, ht⟩ (0 : Fin 2) * 5000 ≤ (i 0).val ∧ (i 0).val < win0_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win0_5.index ⟨(i 0).val / 5000, ht⟩ (1 : Fin 2) * 64 ≤ (i 1).val ∧ (i 1).val < win0_5.index ⟨(i 0).val / 5000, ht⟩ (1 : Fin 2) * 64 + 64
    rw [e51]; omega

/-- Region 0 leaves its result array at the first layer of the arrays it is entered with. -/
theorem final0 (c : Dev nD) : (dat0 V c).arrAt 5 cfg0.N = G0 V c :=
  (dat0 V c).arrAt_eq_of_cover 5 (G0 V c) (fun t _ => flushed0 V c t) (cover0)

/-! ## Region 1: the second layer and the output projection -/

/-- The second region's index maps over its grid: the row-blocked windows sit at block row t, the others at the origin. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- The output projection of the second layer of the arrays region 1 is entered with. -/
abbrev G1 (c : Dev nD) : S100000x112.Idx → EReal :=
  outFn (layerFn (V c main_v39) (V c main_v26) (V c main_arg5) (V c main_arg7) (fun j => V c main_v40 (ix2 (0 : Fin 1) j)))
    (V c main_arg8) (fun j => V c main_v41 (ix2 (0 : Fin 1) j))

/-- What point t writes back is block t of that function of the entry arrays. -/
theorem flushed1 (c : Dev nD) (t : Fin cfg1.N) :
    (dat1 V c).flushed 7 t = ((cfg1.win 7).blk t).view.read (Elt Ideal) (G1 V c) := by
  show (cfg1.win 7).cut (grid1.coords t) ((dat1 V c).after 7 t) = _
  rw [after1_7]
  unfold out1_7
  rw [View.canon_unit_zero hz]
  simp only [View.ld_unit_zero (S := S5000x64) hz, View.ld_unit_zero (S := S64x64) hz, View.ld_unit_zero (S := S1x64) hz,
    View.ld_unit_zero (S := S64x112) hz, View.ld_unit_zero (S := S1x112) hz]
  rw [pay1_eq]
  obtain ⟨e00, e01, e10, e11, e20, e21, e30, e31, e40, e41, e50, e51, e60, e61, e70, e71⟩ := idx1 t
  funext y
  show outAt (layerFn (iblk1 V c 0 t) (iblk1 V c 1 t) (iblk1 V c 2 t) (iblk1 V c 4 t) (fun j => iblk1 V c 3 t (ix2 (0 : Fin 1) j)))
      (iblk1 V c 5 t) (fun j => iblk1 V c 6 t (ix2 (0 : Fin 1) j)) (y 0) (y 1)
    = outAt (layerFn (V c main_v39) (V c main_v26) (V c main_arg5) (V c main_arg7) (fun j => V c main_v40 (ix2 (0 : Fin 1) j)))
        (V c main_arg8) (fun j => V c main_v41 (ix2 (0 : Fin 1) j))
        ((((cfg1.win 7).blk t).view.emb y) 0) ((((cfg1.win 7).blk t).view.emb y) 1)
  have hj : (((cfg1.win 7).blk t).view.emb y) 1 = y 1 := Fin.ext (by
    show win1_7.index t (1 : Fin 2) * 112 + 1 * (y 1).val = (y 1).val
    omega)
  rw [hj]
  refine outAt_row _ _ _ _ _ _ (y 0) _ (fun k' => ?_) (fun k j => ?_) (fun j => ?_) (y 1)
  · show layerAt (iblk1 V c 0 t) (iblk1 V c 1 t) (iblk1 V c 2 t) (iblk1 V c 4 t) (fun j => iblk1 V c 3 t (ix2 (0 : Fin 1) j)) (y 0) k'
      = layerAt (V c main_v39) (V c main_v26) (V c main_arg5) (V c main_arg7) (fun j => V c main_v40 (ix2 (0 : Fin 1) j))
          ((((cfg1.win 7).blk t).view.emb y) 0) k'
    refine layerAt_row _ _ _ _ _ _ _ _ _ _ (y 0) _ (fun k => ?_) (fun k => ?_) (fun k j => ?_) (fun k j => ?_) (fun j => ?_) k'
    · show V c main_v39 (((cfg1.win 0).blk t).view.emb (ix2 (y 0) k)) = V c main_v39 (ix2 ((((cfg1.win 7).blk t).view.emb y) 0) k)
      refine congrArg (V c main_v39) (funext fun a => Fin.ext ?_)
      match a with
      | ⟨0, _⟩ => show win1_0.index t (0 : Fin 2) * 5000 + 1 * (y 0).val = win1_7.index t (0 : Fin 2) * 5000 + 1 * (y 0).val; omega
      | ⟨1, _⟩ => show win1_0.index t (1 : Fin 2) * 64 + 1 * k.val = k.val; omega
    · show V c main_v26 (((cfg1.win 1).blk t).view.emb (ix2 (y 0) k)) = V c main_v26 (ix2 ((((cfg1.win 7).blk t).view.emb y) 0) k)
      refine congrArg (V c main_v26) (funext fun a => Fin.ext ?_)
      match a with
      | ⟨0, _⟩ => show win1_1.index t (0 : Fin 2) * 5000 + 1 * (y 0).val = win1_7.index t (0 : Fin 2) * 5000 + 1 * (y 0).val; omega
      | ⟨1, _⟩ => show win1_1.index t (1 : Fin 2) * 64 + 1 * k.val = k.val; omega
    · show V c main_arg5 (((cfg1.win 2).blk t).view.emb (ix2 k j)) = V c main_arg5 (ix2 k j)
      refine congrArg (V c main_arg5) (funext fun a => Fin.ext ?_)
      match a with
      | ⟨0, _⟩ => show win1_2.index t (0 : Fin 2) * 64 + 1 * k.val = k.val; omega
      | ⟨1, _⟩ => show win1_2.index t (1 : Fin 2) * 64 + 1 * j.val = j.val; omega
    · show V c main_arg7 (((cfg1.win 4).blk t).view.emb (ix2 k j)) = V c main_arg7 (ix2 k j)
      refine congrArg (V c main_arg7) (funext fun a => Fin.ext ?_)
      match a with
      | ⟨0, _⟩ => show win1_4.index t (0 : Fin 2) * 64 + 1 * k.val = k.val; omega
      | ⟨1, _⟩ => show win1_4.index t (1 : Fin 2) * 64 + 1 * j.val = j.val; omega
    · show V c main_v40 (((cfg1.win 3).blk t).view.emb (ix2 (0 : Fin 1) j)) = V c main_v40 (ix2 (0 : Fin 1) j)
      refine congrArg (V c main_v40) (funext fun a => Fin.ext ?_)
      match a with
      | ⟨0, _⟩ => show win1_3.index t (0 : Fin 2) * 1 + 1 * 0 = 0; omega
      | ⟨1, _⟩ => show win1_3.index t (1 : Fin 2) * 64 + 1 * j.val = j.val; omega
  · show V c main_arg8 (((cfg1.win 5).blk t).view.emb (ix2 k j)) = V c main_arg8 (ix2 k j)
    refine congrArg (V c main_arg8) (funext fun a => Fin.ext ?_)
    match a with
    | ⟨0, _⟩ => show win1_5.index t (0 : Fin 2) * 64 + 1 * k.val = k.val; omega
    | ⟨1, _⟩ => show win1_5.index t (1 : Fin 2) * 112 + 1 * j.val = j.val; omega
  · show V c main_v41 (((cfg1.win 6).blk t).view.emb (ix2 (0 : Fin 1) j)) = V c main_v41 (ix2 (0 : Fin 1) j)
    refine congrArg (V c main_v41) (funext fun a => Fin.ext ?_)
    match a with
    | ⟨0, _⟩ => show win1_6.index t (0 : Fin 2) * 1 + 1 * 0 = 0; omega
    | ⟨1, _⟩ => show win1_6.index t (1 : Fin 2) * 112 + 1 * j.val = j.val; omega

/-- An index of the result array is in point t's block iff each coordinate is in the block's range on its axis. -/
theorem mem_blk1 (t : Fin cfg1.N) (i : S100000x112.Idx) :
    i ∈ ((cfg1.win 7).blk t).view.set ↔ ∀ a : Fin 2, win1_7.index t a * S5000x112.size a ≤ (i a).val ∧ (i a).val < win1_7.index t a * S5000x112.size a + S5000x112.size a := by
  show i ∈ ((View.whole main_v42).slice (win1_7.rect t)).set ↔ _
  rw [View.set_slice_whole, Rect.mem_set_unit]
  exact Iff.rfl

/-- Row n lies in the block of point n / 5000. -/
theorem cover1 (i : S100000x112.Idx) : ∃ t : Fin cfg1.N, (cfg1.win 7).flush t = true ∧ i ∈ ((cfg1.win 7).blk t).view.set := by
  have hi0 : (i 0).val < 100000 := (i 0).isLt
  have hi1 : (i 1).val < 112 := (i 1).isLt
  have ht : (i 0).val / 5000 < 20 := by omega
  refine ⟨⟨(i 0).val / 5000, ht⟩, flush1_7 _, ?_⟩
  obtain ⟨-, -, -, -, -, -, -, -, -, -, -, -, -, -, e70, e71⟩ := idx1 ⟨(i 0).val / 5000, ht⟩
  rw [mem_blk1]
  intro a
  match a with
  | ⟨0, _⟩ =>
    show win1_7.index ⟨(i 0).val / 5000, ht⟩ (0 : Fin 2) * 5000 ≤ (i 0).val ∧ (i 0).val < win1_7.index ⟨(i 0).val / 5000, ht⟩ (0 : Fin 2) * 5000 + 5000
    rw [e70]; show (i 0).val / 5000 * 5000 ≤ (i 0).val ∧ (i 0).val < (i 0).val / 5000 * 5000 + 5000; omega
  | ⟨1, _⟩ =>
    show win1_7.index ⟨(i 0).val / 5000, ht⟩ (1 : Fin 2) * 112 ≤ (i 1).val ∧ (i 1).val < win1_7.index ⟨(i 0).val / 5000, ht⟩ (1 : Fin 2) * 112 + 112
    rw [e71]; omega

/-- Region 1 leaves its result array at the output projection of the second layer of the arrays it is entered with. -/
theorem final1 (c : Dev nD) : (dat1 V c).arrAt 7 cfg1.N = G1 V c :=
  (dat1 V c).arrAt_eq_of_cover 7 (G1 V c) (fun t _ => flushed1 V c t) (cover1)

end Cert.KernelIdeal.Region

end
-- ==== Proof.KernelTerm.lean ====
/-
  The program's result as ONE function of the ten argument arrays.

  From the edge array: the sources (negative ones counted from the end) and the targets, each as a column of indices;
  the guarded in-degree c[n] = max (number of edges into n, 1) and its reciprocal. The mean of an array X over the
  edges adds X's rows at the sources into the rows at the targets and multiplies row n by 1 / c[n]. The hidden array is
  the first layer of (mean of x, x); the result is the output projection of the second layer of (mean of hidden, hidden).
-/
import proofs.«134266_j56255481643658_1_alg».proof.Proof.Gen.KernelIdeal
import proofs.«134266_j56255481643658_1_alg».proof.Proof.LibSage

noncomputable section

namespace Cert.KernelIdeal.Sage

open Cert.KernelIdeal Cert.KernelIdeal.Gen Cert.Sage
open Idealize.ShloMosaic Idealize.ShloMosaic.ValueIdx

/-! ## The function -/

/-- The edges' sources. -/
def src (ei : IVec S2x1600000 32) : IVec S1600000 32 :=
  shapeCast S1600000 (extractStridedSlice S1x1600000 ![0, 0] ei slices_S2x1600000_S1x1600000_0_0) shapeCasts_S1x1600000_S1600000

/-- The edges' targets. -/
def dst (ei : IVec S2x1600000 32) : IVec S1600000 32 :=
  shapeCast S1600000 (extractStridedSlice S1x1600000 ![1, 0] ei slices_S2x1600000_S1x1600000_1_0) shapeCasts_S1x1600000_S1600000

/-- A list of node indices as a column, a negative one counted from the end. -/
def wrapCol (s : IVec S1600000 32) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- A list of node indices as a column. -/
def col (d : IVec S1600000 32) : IVec S1600000x1 32 :=
  broadcastInDim S1600000x1 ![0] bcast_S1600000_S1600000x1_0 d

/-- The sources as a column, a negative one counted from the end. -/
def srcCol (ei : IVec S2x1600000 32) : IVec S1600000x1 32 := wrapCol (src ei)

/-- The targets as a column. -/
def dstCol (ei : IVec S2x1600000 32) : IVec S1600000x1 32 := col (dst ei)

/-- The guarded in-degree: max (number of edges into n, 1). -/
def cnt (ei : IVec S2x1600000 32) : FVec Ideal S100000 .f32 :=
  maximumf (Host.scatterAdd scatter_S100000_S1600000x1_S1600000_n_0_0_1
      (broadcastInDim S100000 ![] bcast_S_S100000 (constant S_ .f32 0x00000000#32)) (dstCol ei)
      (broadcastInDim S1600000 ![] bcast_S_S1600000 (constant S_ .f32 0x3F800000#32)))
    (broadcastInDim S100000 ![] bcast_S_S100000 (constant S_ .f32 0x3F800000#32))

/-- Its reciprocal. -/
def inv (ei : IVec S2x1600000 32) : FVec Ideal S100000 .f32 :=
  Host.divf (broadcastInDim S100000 ![] bcast_S_S100000 (constant S_ .f32 0x3F800000#32)) (cnt ei)

/-- The mean over the edges of a 128-wide array. -/
def mean128 (ei : IVec S2x1600000 32) (X : FVec Ideal S100000x128 .f32) : FVec Ideal S100000x128 .f32 :=
  mulf (Host.scatterAdd scatter_S100000x128_S1600000x1_S1600000x128_1_0_0_1
      (broadcastInDim S100000x128 ![] bcast_S_S100000x128 (constant S_ .f32 0x00000000#32)) (dstCol ei)
      (Host.gather gather_S100000x128_S1600000x1_S1600000x128_1_0_n_n_0_1_1128 X (srcCol ei)))
    (broadcastInDim S100000x128 ![0, 1] bcast_S100000x1_S100000x128_0_1
      (broadcastInDim S100000x1 ![0] bcast_S100000_S100000x1_0 (inv ei)))

/-- Rows of a 64-wide array H at the column sC, added into the rows at the column dC, row n times w[n]. -/
def weighted64 (sC dC : IVec S1600000x1 32) (w : FVec Ideal S100000 .f32) (H : FVec Ideal S100000x64 .f32) :
    FVec Ideal S100000x64 .f32 :=
  mulf (Host.scatterAdd scatter_S100000x64_S1600000x1_S1600000x64_1_0_0_1
      (broadcastInDim S100000x64 ![] bcast_S_S100000x64 (constant S_ .f32 0x00000000#32)) dC
      (Host.gather gather_S100000x64_S1600000x1_S1600000x64_1_0_n_n_0_1_164 H sC))
    (broadcastInDim S100000x64 ![0, 1] bcast_S100000x1_S100000x64_0_1
      (broadcastInDim S100000x1 ![0] bcast_S100000_S100000x1_0 w))

/-- The mean over the edges of a 64-wide array. -/
def mean64 (ei : IVec S2x1600000 32) (H : FVec Ideal S100000x64 .f32) : FVec Ideal S100000x64 .f32 :=
  weighted64 (srcCol ei) (dstCol ei) (inv ei) H

/-- The hidden array: the first layer. -/
def hidden (x : FVec Ideal S100000x128 .f32) (ei : IVec S2x1600000 32) (W1l : FVec Ideal S128x64 .f32)
    (b1 : FVec Ideal S64 .f32) (W1r : FVec Ideal S128x64 .f32) : FVec Ideal S100000x64 .f32 :=
  layerFn (mean128 ei x) x W1l W1r (fun j => b1 (ix1 j))

/-- The program's result. -/
def result (x : FVec Ideal S100000x128 .f32) (ei : IVec S2x1600000 32) (W1l : FVec Ideal S128x64 .f32)
    (b1 : FVec Ideal S64 .f32) (W1r : FVec Ideal S128x64 .f32) (W2l : FVec Ideal S64x64 .f32) (b2 : FVec Ideal S64 .f32)
    (W2r : FVec Ideal S64x64 .f32) (Wo : FVec Ideal S64x112 .f32) (bo : FVec Ideal S112 .f32) : FVec Ideal S100000x112 .f32 :=
  outFn (layerFn (mean64 ei (hidden x ei W1l b1 W1r)) (hidden x ei W1l b1 W1r) W2l W2r (fun j => b2 (ix1 j)))
    Wo (fun j => bo (ix1 j))

end Cert.KernelIdeal.Sage

end
-- ==== Proof.KernelValue.lean ====
/-
  The kernel program computes that function. The host stretch before the first region leaves the mean of x, the
  reciprocal in-degree and the bias row in the buffers the first region reads; the region leaves the hidden array; the
  stretch between the regions leaves the mean of the hidden array and the two bias rows; the second region leaves the
  result. A bias laid out as one row reads, at (0, j), its entry j.
-/
import proofs.«134266_j56255481643658_1_alg».proof.Proof.Regions
import proofs.«134266_j56255481643658_1_alg».proof.Proof.KernelRun
import proofs.«134266_j56255481643658_1_alg».proof.Proof.KernelTerm
import Idealize.ShloMosaic.Lib.StableHlo.Run
import Idealize.ShloMosaic.Lib.ValueLayout

set_option maxRecDepth 16384

noncomputable section

namespace Cert.KernelIdeal.Sage

open Cert.KernelIdeal Cert.KernelIdeal.Gen Cert.KernelIdeal.Region Cert.Sage
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## The first host stretch -/

theorem W1_v1 (c : Dev nD) : W1 m ρ c (Proc.devRef .tc main_v1) = src (m ((c : Thread nD τ).loc main_arg1)) := by
  show StableHlo.after hostOps0 (W0 m ρ c) (Proc.devRef .tc main_v1) = _
  dsimp only [hostOps0]
  after_results
  rfl

theorem W1_v3 (c : Dev nD) : W1 m ρ c (Proc.devRef .tc main_v3) = dst (m ((c : Thread nD τ).loc main_arg1)) := by
  show StableHlo.after hostOps0 (W0 m ρ c) (Proc.devRef .tc main_v3) = _
  dsimp only [hostOps0]
  after_results
  rfl

theorem W1_v11 (c : Dev nD) : W1 m ρ c (Proc.devRef .tc main_v11) = inv (m ((c : Thread nD τ).loc main_arg1)) := by
  show StableHlo.after hostOps0 (W0 m ρ c) (Proc.devRef .tc main_v11) = _
  dsimp only [hostOps0]
  after_results
  rfl

set_option maxHeartbeats 4000000 in
theorem W1_v24 (c : Dev nD) : W1 m ρ c (Proc.devRef .tc main_v24) = mean128 (m ((c : Thread nD τ).loc main_arg1)) (m ((c : Thread nD τ).loc main_arg0)) := by
  show StableHlo.after hostOps0 (W0 m ρ c) (Proc.devRef .tc main_v24) = _
  dsimp only [hostOps0]
  after_results_simp
  rfl

theorem W1_v25 (c : Dev nD) : W1 m ρ c (Proc.devRef .tc main_v25) = shapeCast S1x64 (m ((c : Thread nD τ).loc main_arg3)) shapeCasts_S64_S1x64 := by
  show StableHlo.after hostOps0 (W0 m ρ c) (Proc.devRef .tc main_v25) = _
  dsimp only [hostOps0]
  after_results
  rfl

theorem W1_arg0 (c : Dev nD) : W1 m ρ c (Proc.devRef .tc main_arg0) = (m ((c : Thread nD τ).loc main_arg0)) := by
  show StableHlo.after hostOps0 (W0 m ρ c) (Proc.devRef .tc main_arg0) = _
  dsimp only [hostOps0]
  after_results

theorem W1_arg2 (c : Dev nD) : W1 m ρ c (Proc.devRef .tc main_arg2) = (m ((c : Thread nD τ).loc main_arg2)) := by
  show StableHlo.after hostOps0 (W0 m ρ c) (Proc.devRef .tc main_arg2) = _
  dsimp only [hostOps0]
  after_results

theorem W1_arg4 (c : Dev nD) : W1 m ρ c (Proc.devRef .tc main_arg4) = (m ((c : Thread nD τ).loc main_arg4)) := by
  show StableHlo.after hostOps0 (W0 m ρ c) (Proc.devRef .tc main_arg4) = _
  dsimp only [hostOps0]
  after_results

theorem W1_arg5 (c : Dev nD) : W1 m ρ c (Proc.devRef .tc main_arg5) = (m ((c : Thread nD τ).loc main_arg5)) := by
  show StableHlo.after hostOps0 (W0 m ρ c) (Proc.devRef .tc main_arg5) = _
  dsimp only [hostOps0]
  after_results

theorem W1_arg6 (c : Dev nD) : W1 m ρ c (Proc.devRef .tc main_arg6) = (m ((c : Thread nD τ).loc main_arg6)) := by
  show StableHlo.after hostOps0 (W0 m ρ c) (Proc.devRef .tc main_arg6) = _
  dsimp only [hostOps0]
  after_results

theorem W1_arg7 (c : Dev nD) : W1 m ρ c (Proc.devRef .tc main_arg7) = (m ((c : Thread nD τ).loc main_arg7)) := by
  show StableHlo.after hostOps0 (W0 m ρ c) (Proc.devRef .tc main_arg7) = _
  dsimp only [hostOps0]
  after_results

theorem W1_arg8 (c : Dev nD) : W1 m ρ c (Proc.devRef .tc main_arg8) = (m ((c : Thread nD τ).loc main_arg8)) := by
  show StableHlo.after hostOps0 (W0 m ρ c) (Proc.devRef .tc main_arg8) = _
  dsimp only [hostOps0]
  after_results

theorem W1_arg9 (c : Dev nD) : W1 m ρ c (Proc.devRef .tc main_arg9) = (m ((c : Thread nD τ).loc main_arg9)) := by
  show StableHlo.after hostOps0 (W0 m ρ c) (Proc.devRef .tc main_arg9) = _
  dsimp only [hostOps0]
  after_results

/-! ## Region 0, and what it leaves alone -/

/-- A length-N vector cast to one row reads, at (0, j), its entry j. -/
theorem row_apply {N : Nat} (v : (⟨1, ![N]⟩ : Shape).Idx → EReal) (h : (⟨1, ![N]⟩ : Shape).ShapeCasts ⟨2, ![1, N]⟩) :
    (fun j : Fin N => shapeCast ⟨2, ![1, N]⟩ v h (ix2 (0 : Fin 1) j)) = fun j => v (ix1 j) :=
  funext fun j => shapeCast_a_1a_apply v h 0 j

theorem W2_v1 (c : Dev nD) : W2 m ρ c (Proc.devRef .tc main_v1) = src (m ((c : Thread nD τ).loc main_arg1)) :=
  (hrest0 m ρ c main_v1 (by decide)).trans (W1_v1 m ρ c)
theorem W2_v3 (c : Dev nD) : W2 m ρ c (Proc.devRef .tc main_v3) = dst (m ((c : Thread nD τ).loc main_arg1)) :=
  (hrest0 m ρ c main_v3 (by decide)).trans (W1_v3 m ρ c)
theorem W2_v11 (c : Dev nD) : W2 m ρ c (Proc.devRef .tc main_v11) = inv (m ((c : Thread nD τ).loc main_arg1)) :=
  (hrest0 m ρ c main_v11 (by decide)).trans (W1_v11 m ρ c)
theorem W2_arg5 (c : Dev nD) : W2 m ρ c (Proc.devRef .tc main_arg5) = (m ((c : Thread nD τ).loc main_arg5)) :=
  (hrest0 m ρ c main_arg5 (by decide)).trans (W1_arg5 m ρ c)
theorem W2_arg6 (c : Dev nD) : W2 m ρ c (Proc.devRef .tc main_arg6) = (m ((c : Thread nD τ).loc main_arg6)) :=
  (hrest0 m ρ c main_arg6 (by decide)).trans (W1_arg6 m ρ c)
theorem W2_arg7 (c : Dev nD) : W2 m ρ c (Proc.devRef .tc main_arg7) = (m ((c : Thread nD τ).loc main_arg7)) :=
  (hrest0 m ρ c main_arg7 (by decide)).trans (W1_arg7 m ρ c)
theorem W2_arg8 (c : Dev nD) : W2 m ρ c (Proc.devRef .tc main_arg8) = (m ((c : Thread nD τ).loc main_arg8)) :=
  (hrest0 m ρ c main_arg8 (by decide)).trans (W1_arg8 m ρ c)
theorem W2_arg9 (c : Dev nD) : W2 m ρ c (Proc.devRef .tc main_arg9) = (m ((c : Thread nD τ).loc main_arg9)) :=
  (hrest0 m ρ c main_arg9 (by decide)).trans (W1_arg9 m ρ c)

/-- Region 0 leaves the hidden array. -/
theorem W2_v26 (c : Dev nD) :
    W2 m ρ c (Proc.devRef .tc main_v26) = hidden (m ((c : Thread nD τ).loc main_arg0)) (m ((c : Thread nD τ).loc main_arg1)) (m ((c : Thread nD τ).loc main_arg2)) (m ((c : Thread nD τ).loc main_arg3)) (m ((c : Thread nD τ).loc main_arg4)) := by
  refine (W2_arr m ρ c 5).trans ?_
  rw [final0 (V1 m ρ) c]
  show layerFn (W1 m ρ c (Proc.devRef .tc main_v24)) (W1 m ρ c (Proc.devRef .tc main_arg0)) (W1 m ρ c (Proc.devRef .tc main_arg2))
      (W1 m ρ c (Proc.devRef .tc main_arg4)) (fun j => W1 m ρ c (Proc.devRef .tc main_v25) (ix2 (0 : Fin 1) j)) = _
  rw [W1_v24, W1_arg0, W1_arg2, W1_arg4, W1_v25, row_apply]
  rfl

/-! ## The second host stretch -/

set_option maxHeartbeats 4000000 in
/-- The second stretch's weighted aggregate, from ANY contents at its entry: the rows of the buffer of the hidden array
    at the wrapped sources, added at the targets, times the buffer of the reciprocal in-degree. -/
theorem after1_v39 (W : Valuation τ sig (Elt Ideal)) :
    StableHlo.after hostOps1 W (Proc.devRef .tc main_v39)
      = weighted64 (wrapCol (W (Proc.devRef .tc main_v1))) (col (W (Proc.devRef .tc main_v3))) (W (Proc.devRef .tc main_v11))
          (W (Proc.devRef .tc main_v26)) := by
  dsimp only [hostOps1]
  after_results_simp
  rfl

theorem W3_v39 (c : Dev nD) :
    W3 m ρ c (Proc.devRef .tc main_v39) = mean64 (m ((c : Thread nD τ).loc main_arg1)) (W2 m ρ c (Proc.devRef .tc main_v26)) := by
  refine (after1_v39 (W2 m ρ c)).trans ?_
  rw [W2_v1, W2_v3, W2_v11]
  rfl

theorem W3_v26 (c : Dev nD) : W3 m ρ c (Proc.devRef .tc main_v26) = W2 m ρ c (Proc.devRef .tc main_v26) := by
  show StableHlo.after hostOps1 (W2 m ρ c) (Proc.devRef .tc main_v26) = _
  dsimp only [hostOps1]
  after_results

theorem W3_v40 (c : Dev nD) : W3 m ρ c (Proc.devRef .tc main_v40) = shapeCast S1x64 (m ((c : Thread nD τ).loc main_arg6)) shapeCasts_S64_S1x64 := by
  show StableHlo.after hostOps1 (W2 m ρ c) (Proc.devRef .tc main_v40) = _
  dsimp only [hostOps1]
  after_results
  rw [W2_arg6]
  rfl

theorem W3_v41 (c : Dev nD) : W3 m ρ c (Proc.devRef .tc main_v41) = shapeCast S1x112 (m ((c : Thread nD τ).loc main_arg9)) shapeCasts_S112_S1x112 := by
  show StableHlo.after hostOps1 (W2 m ρ c) (Proc.devRef .tc main_v41) = _
  dsimp only [hostOps1]
  after_results
  rw [W2_arg9]
  rfl

theorem W3_arg5 (c : Dev nD) : W3 m ρ c (Proc.devRef .tc main_arg5) = (m ((c : Thread nD τ).loc main_arg5)) := by
  show StableHlo.after hostOps1 (W2 m ρ c) (Proc.devRef .tc main_arg5) = _
  dsimp only [hostOps1]
  after_results
  exact W2_arg5 m ρ c

theorem W3_arg7 (c : Dev nD) : W3 m ρ c (Proc.devRef .tc main_arg7) = (m ((c : Thread nD τ).loc main_arg7)) := by
  show StableHlo.after hostOps1 (W2 m ρ c) (Proc.devRef .tc main_arg7) = _
  dsimp only [hostOps1]
  after_results
  exact W2_arg7 m ρ c

theorem W3_arg8 (c : Dev nD) : W3 m ρ c (Proc.devRef .tc main_arg8) = (m ((c : Thread nD τ).loc main_arg8)) := by
  show StableHlo.after hostOps1 (W2 m ρ c) (Proc.devRef .tc main_arg8) = _
  dsimp only [hostOps1]
  after_results
  exact W2_arg8 m ρ c

/-! ## Region 1: the result -/

/-- The last boundary's contents at the result array: the function of the ten argument arrays. -/
theorem value (c : Dev nD) :
    W4 m ρ c (Proc.devRef .tc main_v42) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W4_arr m ρ c 7).trans ?_
  rw [final1 (V3 m ρ) c]
  show outFn (layerFn (W3 m ρ c (Proc.devRef .tc main_v39)) (W3 m ρ c (Proc.devRef .tc main_v26)) (W3 m ρ c (Proc.devRef .tc main_arg5))
      (W3 m ρ c (Proc.devRef .tc main_arg7)) (fun j => W3 m ρ c (Proc.devRef .tc main_v40) (ix2 (0 : Fin 1) j)))
      (W3 m ρ c (Proc.devRef .tc main_arg8)) (fun j => W3 m ρ c (Proc.devRef .tc main_v41) (ix2 (0 : Fin 1) j)) = _
  rw [W3_v39, W3_v26, W3_arg5, W3_arg7, W3_v40, W3_arg8, W3_v41, W2_v26, row_apply, row_apply]
  rfl

end Cert.KernelIdeal.Sage

end
-- ==== Proof.RefValue.lean ====
/-
  The reference program computes the same function of its ten argument arrays. Its result is the host's spelling of the
  output projection of the second layer, the hidden array the host's spelling of the first layer (the bias added before
  the second product instead of after it), and each mean the aggregate DIVIDED by the guarded in-degree where the other
  program multiplies by its reciprocal: the guarded in-degree is a real number that is at least one, so the two agree on
  every extended real. What is left after these three rewritings is the same tree of gathers, accumulating scatters and
  broadcasts on both sides.
-/
import proofs.«134266_j56255481643658_1_alg».proof.Proof.Gen.ReferenceIdeal.Run
import proofs.«134266_j56255481643658_1_alg».proof.Proof.KernelTerm

set_option maxRecDepth 16384

noncomputable section

namespace Cert.ReferenceIdeal.Sage

open Cert.ReferenceIdeal Cert.ReferenceIdeal.Gen Cert.ReferenceIdeal.Value Cert.Sage
open Idealize.ShloMosaic Idealize.ShloMosaic.TcCoe Idealize.ShloMosaic.ValueIdx Idealize.SL.Sem

set_option maxHeartbeats 4000000 in
/-- The reference's result term is the function of the argument arrays. -/
theorem result_eq (m : (ℓ : Loc nD τ sig) → Buf (Elt Ideal) ℓ) (c : Dev nD) :
    res_main_v59 (F := Ideal) m c
      = Cert.KernelIdeal.Sage.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  unfold res_main_v59
  rw [host_out dot_S100000x64_S64x112_S100000x112_1_0_0_1_n_n rfl rfl rfl rfl rfl rfl]
  rw [host_layer dot_S100000x64_S64x64_S100000x64_1_0_0_1_n_n rfl rfl rfl rfl rfl rfl]
  rw [host_layer dot_S100000x128_S128x64_S100000x64_1_0_0_1_n_n rfl rfl rfl rfl rfl rfl]
  rw [mean_div_eq_mul, mean_div_eq_mul]
  rfl

end Cert.ReferenceIdeal.Sage

end
-- ==== Proof.lean ====
/-
  GraphSAGE, two mean-aggregating layers and an output projection, the dense part in two kernels over twenty blocks of
  5000 nodes, against its plain reference: both programs compute, over the extended reals, ONE function of the ten
  argument arrays (Proof/KernelTerm.lean).

  The kernel program: its two regions each leave a layer of the arrays they are entered with (Proof/Regions.lean, over
  the per-block arithmetic of Proof/KernelBody.lean), the host stretches around them the means and bias rows
  (Proof/KernelValue.lean), so the run ends with the result array at that function (Proof/KernelRun.lean states the run
  with the result array named). The reference program: its run's term is that function after three rewritings — the
  bias moved past a product, a product read as a sum, and the mean's division by the guarded in-degree read as the
  product with its reciprocal, which needs only that a count of edges is a real number (Proof/RefValue.lean,
  Proof/LibSage.lean). No input's finiteness is used: the laws that join the two sides hold at the infinities too.
  The idealization changed nothing in the kernel program, so there is nothing to preserve.
-/
import proofs.«134266_j56255481643658_1_alg».proof.Defs
import proofs.«134266_j56255481643658_1_alg».proof.Proof.Gen.Kernel
import proofs.«134266_j56255481643658_1_alg».proof.Proof.Gen.Kernel.Skeleton
import proofs.«134266_j56255481643658_1_alg».proof.Proof.Gen.Kernel.Launch
import proofs.«134266_j56255481643658_1_alg».proof.Proof.Gen.Kernel.Points
import proofs.«134266_j56255481643658_1_alg».proof.Proof.Gen.Kernel.Frame
import proofs.«134266_j56255481643658_1_alg».proof.Proof.Gen.KernelIdeal
import proofs.«134266_j56255481643658_1_alg».proof.Proof.Gen.KernelIdeal.Skeleton
import proofs.«134266_j56255481643658_1_alg».proof.Proof.Gen.KernelIdeal.Launch
import proofs.«134266_j56255481643658_1_alg».proof.Proof.Gen.KernelIdeal.Points
import proofs.«134266_j56255481643658_1_alg».proof.Proof.Gen.KernelIdeal.Frame
import proofs.«134266_j56255481643658_1_alg».proof.Proof.Gen.ReferenceIdeal
import proofs.«134266_j56255481643658_1_alg».proof.Proof.Gen.ReferenceIdeal.Run
import proofs.«134266_j56255481643658_1_alg».proof.Proof.Gen.Pre_finite_inputs
import proofs.«134266_j56255481643658_1_alg».proof.Proof.KernelValue
import proofs.«134266_j56255481643658_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end with the result array at the one function of the argument arrays, which agree. -/
theorem algebraic : Cert.algebraic_KernelIdeal_ReferenceIdeal := by
  intro m ρ m' ρ' _ hagree
  refine ⟨fun c => Cert.KernelIdeal.Sage.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Sage.value m ρ c), (h c).2⟩)
      (Cert.KernelIdeal.GenRun.run (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Sage.result_eq m' c]
    obtain ⟨h0, h1, h2, h3, h4, h5, h6, h7, h8, h9⟩ := hagree c
    rw [h0, h1, h2, h3, h4, h5, h6, h7, h8, h9]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
